-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S10 .f32) (main_v83 : IVec S_ 1) (main_v84 : FVec F S10x1024 .f32) (main_cst_32 : FVec F S_ .f32) : IVec S_ 1 :=
  let main_v85 : FVec F S10x1024 .f32 := broadcastInDim S10x1024 ![] bcast_S_S10x1024 main_cst_32
  let main_v86 : IVec S10x1024 1 := cmpf .olt main_v84 main_v85
  let main_c_33 : IVec S_ 1 := constantI S_ 1 1#1
  let main_v87 : IVec S_ 1 := (fun x v => Host.reduce IntOp.andi x v reducesTo_S10x1024_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg14 : FVec F S1024 .f32) (main_arg15 : FVec F S1024 .f32) (main_arg16 : FVec F S1024 .f32) (main_arg17 : FVec F S10x1024 .f32) (main_arg18 : FVec F S10 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S10x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v48 : IVec S_ 1) (main_v49 : FVec F S4x1024 .f32) (main_v50 : FVec F S4x1024 .f32) : IVec S_ 1 :=
  let main_v51 : IVec S4x1024 1 := cmpf .olt main_v49 main_v50
  let main_c_19 : IVec S_ 1 := constantI S_ 1 1#1
  let main_v52 : IVec S_ 1 := (fun x v => Host.reduce IntOp.andi x v reducesTo_S4x1024_S_d0_1 h_S_) main_v51 main_c_19
  let main_v53 : IVec S_ 1 := andi main_v48 main_v52
  let main_v54 : FVec F S4x1024x1024 .f32 := Host.absf main_arg11
  let main_cst_20 : FVec F S_ .f32 := constant S_ .f32 0x7F800000#32
  let main_v55 : FVec F S4x1024x1024 .f32 := broadcastInDim S4x1024x1024 ![] bcast_S_S4x1024x1024 main_cst_20
  let main_v56 : IVec S4x1024x1024 1 := cmpf .olt main_v54 main_v55
  let main_c_21 : IVec S_ 1 := constantI S_ 1 1#1
  let main_v57 : IVec S_ 1 := (fun x v => Host.reduce IntOp.andi x v reducesTo_S4x1024x1024_S_d0_1_2 h_S_) main_v56 main_c_21
  let main_v58 : IVec S_ 1 := andi main_v53 main_v57
  let main_v59 : FVec F S4x1024 .f32 := Host.absf main_arg12
  let main_cst_22 : FVec F S_ .f32 := constant S_ .f32 0x7F800000#32
  let main_v60 : FVec F S4x1024 .f32 := broadcastInDim S4x1024 ![] bcast_S_S4x1024 main_cst_22
  let main_v61 : IVec S4x1024 1 := cmpf .olt main_v59 main_v60
  let main_c_23 : IVec S_ 1 := constantI S_ 1 1#1
  let main_v62 : IVec S_ 1 := (fun x v => Host.reduce IntOp.andi x v reducesTo_S4x1024_S_d0_1 h_S_) main_v61 main_c_23
  let main_v63 : IVec S_ 1 := andi main_v58 main_v62
  let main_v64 : FVec F S1024x4096 .f32 := Host.absf main_arg13
  let main_cst_24 : FVec F S_ .f32 := constant S_ .f32 0x7F800000#32
  let main_v65 : FVec F S1024x4096 .f32 := broadcastInDim S1024x4096 ![] bcast_S_S1024x4096 main_cst_24
  let main_v66 : IVec S1024x4096 1 := cmpf .olt main_v64 main_v65
  let main_c_25 : IVec S_ 1 := constantI S_ 1 1#1
  let main_v67 : IVec S_ 1 := (fun x v => Host.reduce IntOp.andi x v reducesTo_S1024x4096_S_d0_1 h_S_) main_v66 main_c_25
  fn_part4 (F := F) main_arg14 main_arg15 main_arg16 main_arg17 main_arg18 main_v63 main_v67

def fn_part2 {F : FTy → Type} [FloatOps F] (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S4x1024x1024 .f32 := Host.absf main_arg9
  let main_cst_16 : FVec F S_ .f32 := constant S_ .f32 0x7F800000#32
  let main_v45 : FVec F S4x1024x1024 .f32 := broadcastInDim S4x1024x1024 ![] bcast_S_S4x1024x1024 main_cst_16
  let main_v46 : IVec S4x1024x1024 1 := cmpf .olt main_v44 main_v45
  let main_c_17 : IVec S_ 1 := constantI S_ 1 1#1
  let main_v47 : IVec S_ 1 := (fun x v => Host.reduce IntOp.andi x v reducesTo_S4x1024x1024_S_d0_1_2 h_S_) main_v46 main_c_17
  let main_v48 : IVec S_ 1 := andi main_v43 main_v47
  let main_v49 : FVec F S4x1024 .f32 := Host.absf main_arg10
  let main_cst_18 : FVec F S_ .f32 := constant S_ .f32 0x7F800000#32
  let main_v50 : FVec F S4x1024 .f32 := broadcastInDim S4x1024 ![] bcast_S_S4x1024 main_cst_18
  fn_part3 (F := F) main_arg11 main_arg12 main_arg13 main_arg14 main_arg15 main_arg16 main_arg17 main_arg18 main_v48 main_v49 main_v50

def fn_part1 {F : FTy → Type} [FloatOps F] (main_arg4 : FVec F S4x1024 .f32) (main_arg5 : FVec F S1024x4096 .f32) (main_arg6 : FVec F S1024 .f32) (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S4x1024x1024 .f32) (main_arg2 : FVec F S4x1024 .f32) (main_arg3 : FVec F S4x1024x1024 .f32) (main_arg4 : FVec F S4x1024 .f32) (main_arg5 : FVec F S1024x4096 .f32) (main_arg6 : FVec F S1024 .f32) (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S4096x1024 : Shape := ⟨2, ![4096, 1024]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩
abbrev S1024x10 : Shape := ⟨2, ![1024, 10]⟩
abbrev S16384x10 : Shape := ⟨2, ![16384, 10]⟩
abbrev S1x10 : Shape := ⟨2, ![1, 10]⟩

abbrev nBuf : Space → Nat
  | .hbm => 52
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S4x1024x1024, .f32⟩
  | .hbm, ⟨4, _⟩ => ⟨S4x1024, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x1024x1024, .f32⟩
  | .hbm, ⟨10, _⟩ => ⟨S4x1024, .f32⟩
  | .hbm, ⟨11, _⟩ => ⟨S4x1024x1024, .f32⟩
  | .hbm, ⟨12, _⟩ => ⟨S4x1024, .f32⟩
  | .hbm, ⟨13, _⟩ => ⟨S1024x4096, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S10x1024, .f32⟩
  | .hbm, ⟨18, _⟩ => ⟨S10, .f32⟩
  | .hbm, ⟨19, _⟩ => ⟨S4096x1024, .f32⟩
  | .hbm, ⟨20, _⟩ => ⟨S1024x4096, .f32⟩
  | .hbm, ⟨21, _⟩ => ⟨S1024x4096, .bf16⟩
  | .hbm, ⟨22, _⟩ => ⟨S4096x1024, .f32⟩
  | .hbm, ⟨23, _⟩ => ⟨S1024x4096, .f32⟩
  | .hbm, ⟨24, _⟩ => ⟨S1024x4096, .bf16⟩
  | .hbm, ⟨25, _⟩ => ⟨S4096x1024, .f32⟩
  | .hbm, ⟨26, _⟩ => ⟨S4096x1024, .bf16⟩
  | .hbm, ⟨27, _⟩ => ⟨S1x4096, .f32⟩
  | .hbm, ⟨28, _⟩ => ⟨S1x4096, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S4096x1024, .f32⟩
  | .hbm, ⟨34, _⟩ => ⟨S1024x4096, .f32⟩
  | .hbm, ⟨35, _⟩ => ⟨S1024x4096, .bf16⟩
  | .hbm, ⟨36, _⟩ => ⟨S4096x1024, .f32⟩
  | .hbm, ⟨37, _⟩ => ⟨S1024x4096, .f32⟩
  | .hbm, ⟨38, _⟩ => ⟨S1024x4096, .bf16⟩
  | .hbm, ⟨39, _⟩ => ⟨S4096x1024, .f32⟩
  | .hbm, ⟨40, _⟩ => ⟨S4096x1024, .bf16⟩
  | .hbm, ⟨41, _⟩ => ⟨S1x4096, .f32⟩
  | .hbm, ⟨42, _⟩ => ⟨S1x4096, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S16384x1024, .f32⟩
  | .hbm, ⟨47, _⟩ => ⟨S1024x10, .f32⟩
  | .hbm, ⟨48, _⟩ => ⟨S16384x10, .f32⟩
  | .hbm, ⟨49, _⟩ => ⟨S1x10, .f32⟩
  | .hbm, ⟨50, _⟩ => ⟨S16384x10, .f32⟩
  | .hbm, ⟨51, _⟩ => ⟨S16384x10, .f32⟩
  | .local _ .vmem, ⟨0, _⟩ => ⟨S128x1024, .f32⟩
  | .local _ .vmem, ⟨1, _⟩ => ⟨S128x1024, .f32⟩
  | .local _ .vmem, ⟨2, _⟩ => ⟨S1024x4096, .bf16⟩
  | .local _ .vmem, ⟨3, _⟩ => ⟨S1x4096, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1024x4096, .bf16⟩
  | .local _ .vmem, ⟨15, _⟩ => ⟨S1x4096, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S128x1024, .f32⟩
  | .local _ .vmem, ⟨23, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S4x1024x1024_S4096x1024 : S4x1024x1024.ShapeCasts S4096x1024
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4x1024_S1x4096 : S4x1024.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  shapeCasts_S128x1024_S128x1024 : S128x1024.ShapeCasts S128x1024
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  dot_S16384x1024_S1024x10_S16384x10_1_0_0_1_n_n_wf : DotDims.WF S16384x1024 S1024x10 S16384x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S16384x1024.size a
  hwx1_0 : ∀ i : grid1.Coords, EltTy.bits .f32 = 32 ∨ (Rect.block (s := S16384x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x1024.size a ≤ S4096x1024.size a
  hwx1_5 : ∀ i : grid1.Coords, EltTy.bits .bf16 = 32 ∨ (Rect.block (s := S4096x1024) S4096x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1024.size a ≤ S16384x1024.size a
  hwx1_9 : ∀ i : grid1.Coords, EltTy.bits .f32 = 32 ∨ (Rect.block (s := S16384x1024) S128x1024.size (cc1_transform_9 i) (hinb1_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S4096x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S128x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S16384x4x1024 : Shape := ⟨3, ![16384, 4, 1024]⟩
abbrev S1x4x1024 : Shape := ⟨3, ![1, 4, 1024]⟩
abbrev S16384x4096 : Shape := ⟨2, ![16384, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x10 : Shape := ⟨2, ![1024, 10]⟩
abbrev S16384x10 : Shape := ⟨2, ![16384, 10]⟩
abbrev S1x10 : Shape := ⟨2, ![1, 10]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S4x1024x1024, .f32⟩
  | .hbm, ⟨4, _⟩ => ⟨S4x1024, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x1024x1024, .f32⟩
  | .hbm, ⟨10, _⟩ => ⟨S4x1024, .f32⟩
  | .hbm, ⟨11, _⟩ => ⟨S4x1024x1024, .f32⟩
  | .hbm, ⟨12, _⟩ => ⟨S4x1024, .f32⟩
  | .hbm, ⟨13, _⟩ => ⟨S1024x4096, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S10x1024, .f32⟩
  | .hbm, ⟨18, _⟩ => ⟨S10, .f32⟩
  | .hbm, ⟨19, _⟩ => ⟨S16384x4x1024, .f32⟩
  | .hbm, ⟨20, _⟩ => ⟨S1x4x1024, .f32⟩
  | .hbm, ⟨21, _⟩ => ⟨S16384x4x1024, .f32⟩
  | .hbm, ⟨22, _⟩ => ⟨S16384x4x1024, .f32⟩
  | .hbm, ⟨23, _⟩ => ⟨S16384x4x1024, .f32⟩
  | .hbm, ⟨24, _⟩ => ⟨S1x4x1024, .f32⟩
  | .hbm, ⟨25, _⟩ => ⟨S16384x4x1024, .f32⟩
  | .hbm, ⟨26, _⟩ => ⟨S16384x4x1024, .f32⟩
  | .hbm, ⟨27, _⟩ => ⟨S16384x4x1024, .f32⟩
  | .hbm, ⟨28, _⟩ => ⟨S16384x4096, .f32⟩
  | .hbm, ⟨29, _⟩ => ⟨S4096x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x4x1024, .f32⟩
  | .hbm, ⟨65, _⟩ => ⟨S1x4x1024, .f32⟩
  | .hbm, ⟨66, _⟩ => ⟨S16384x4x1024, .f32⟩
  | .hbm, ⟨67, _⟩ => ⟨S16384x4x1024, .f32⟩
  | .hbm, ⟨68, _⟩ => ⟨S16384x4x1024, .f32⟩
  | .hbm, ⟨69, _⟩ => ⟨S1x4x1024, .f32⟩
  | .hbm, ⟨70, _⟩ => ⟨S16384x4x1024, .f32⟩
  | .hbm, ⟨71, _⟩ => ⟨S16384x4x1024, .f32⟩
  | .hbm, ⟨72, _⟩ => ⟨S16384x4x1024, .f32⟩
  | .hbm, ⟨73, _⟩ => ⟨S16384x4096, .f32⟩
  | .hbm, ⟨74, _⟩ => ⟨S4096x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | .hbm, ⟨109, _⟩ => ⟨S1024x10, .f32⟩
  | .hbm, ⟨110, _⟩ => ⟨S16384x10, .f32⟩
  | .hbm, ⟨111, _⟩ => ⟨S1x10, .f32⟩
  | .hbm, ⟨112, _⟩ => ⟨S16384x10, .f32⟩
  | .hbm, ⟨113, _⟩ => ⟨S16384x10, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_4 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_8 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  shapeCasts_S16384x4x1024_S16384x4096 : S16384x4x1024.ShapeCasts S16384x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x1024_S4x1024x1024_S16384x4x1024_1_2_0_01_n_n_wf : DotDims.WF S16384x1024 S4x1024x1024 S16384x4x1024 [1] [2] [0] [0, 1] [] []
  dot_S16384x4096_S4096x1024_S16384x1024_1_0_0_1_n_n_wf : DotDims.WF S16384x4096 S4096x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.Spec.lean ====
/-
  The function both programs compute, as mathematics on the extended reals.

  One block of the network acts on each row of its input independently.  For a row `x : Fin 1024 → EReal`, two
  affine maps give `right k = (∑ d, x d · wr k d) + br k` and `left k = (∑ d, x d · wl k d) + bl k` over the
  4096 hidden units `k`; their product is contracted against `we`, a bias is added, and the row is added back:
  `pre d = x d + ((∑ k, (right k · left k) · we d k) + be d)`.  The row is then normalised: with `mean f =
  (∑ d, f d) / 1024`, `out d = ((pre d − mean pre) · rsqrt (mean ((pre − mean pre)²) + ε)) · g d + b d`.
  The weights enter as functions of their indices, so that each program can supply its own storage layout.
  The whole network is two such blocks followed by a linear head into ten outputs.
-/
import Idealize.ShloMosaic.PureOps.Ideal
import Idealize.ShloMosaic.Lib.ValueIdx

noncomputable section

namespace Cert.Spec

open Idealize.ShloMosaic Idealize.ShloMosaic.ValueIdx

/-- An affine map of a row into the hidden units: `(∑ d, x d · w k d) + bias k`. -/
def proj (x : Fin 1024 → EReal) (w : Fin 4096 → Fin 1024 → EReal) (bias : Fin 4096 → EReal) (k : Fin 4096) : EReal :=
  (∑ d : Fin 1024, x d * w k d) + bias k

/-- The bilinear layer with its residual: the product of the two affine maps, contracted against `we`, plus `be`,
    added to the row. -/
def pre (x : Fin 1024 → EReal) (wr : Fin 4096 → Fin 1024 → EReal) (br : Fin 4096 → EReal)
    (wl : Fin 4096 → Fin 1024 → EReal) (bl : Fin 4096 → EReal) (we : Fin 1024 → Fin 4096 → EReal)
    (be : Fin 1024 → EReal) (d : Fin 1024) : EReal :=
  x d + ((∑ k : Fin 4096, (proj x wr br k * proj x wl bl k) * we d k) + be d)

/-- The row length, 1024, as both programs write it: the float whose pattern is `0x44800000`. -/
def len : EReal := Ideal.ofBits .f32 0x44800000#32

/-- The variance offset both programs add: the float nearest to 1e-5, pattern `0x3727C5AC`. -/
def eps : EReal := Ideal.ofBits .f32 0x3727C5AC#32

/-- The mean of a row: its sum divided by the row length. -/
def mean (f : Fin 1024 → EReal) : EReal := Ideal.div (∑ d : Fin 1024, f d) len

/-- Layer normalisation of a row `h` with gain `g` and offset `b`. -/
def lnRow (h g b : Fin 1024 → EReal) (d : Fin 1024) : EReal :=
  ((h d - mean h) * Ideal.rsqrt (mean (fun d' => (h d' - mean h) * (h d' - mean h)) + eps)) * g d + b d

/-- One block on a row: the bilinear layer with residual, then layer normalisation. -/
def blockRow (x : Fin 1024 → EReal) (wr : Fin 4096 → Fin 1024 → EReal) (br : Fin 4096 → EReal)
    (wl : Fin 4096 → Fin 1024 → EReal) (bl : Fin 4096 → EReal) (we : Fin 1024 → Fin 4096 → EReal)
    (be g b : Fin 1024 → EReal) : Fin 1024 → EReal :=
  lnRow (pre x wr br wl bl we be) g b

/-- The array of activations, 16384 rows of 1024. -/
abbrev Act : Type := (⟨2, ![16384, 1024]⟩ : Shape).Idx → EReal

/-- One block on the whole array, row by row, the weights given as functions of their indices. -/
def blockArr (x : Act) (wr : Fin 4096 → Fin 1024 → EReal) (br : Fin 4096 → EReal)
    (wl : Fin 4096 → Fin 1024 → EReal) (bl : Fin 4096 → EReal) (we : Fin 1024 → Fin 4096 → EReal)
    (be g b : Fin 1024 → EReal) : Act :=
  fun i => blockRow (fun d => x (ix2 (i 0) d)) wr br wl bl we be g b (i 1)

theorem blockArr_apply (x : Act) (wr : Fin 4096 → Fin 1024 → EReal) (br : Fin 4096 → EReal)
    (wl : Fin 4096 → Fin 1024 → EReal) (bl : Fin 4096 → EReal) (we : Fin 1024 → Fin 4096 → EReal)
    (be g b : Fin 1024 → EReal) (n : Fin 16384) (d : Fin 1024) :
    blockArr x wr br wl bl we be g b (ix2 n d) = blockRow (fun d' => x (ix2 n d')) wr br wl bl we be g b d := rfl

/-- Hidden unit `k` of 4096 is unit `k % 1024` of basis `k / 1024`. -/
def hi (k : Fin 4096) : Fin 4 := ⟨k.val / 1024, by have := k.isLt; omega⟩
def lo (k : Fin 4096) : Fin 1024 := ⟨k.val % 1024, Nat.mod_lt _ (by decide)⟩

/-- The projection weights as the arguments store them, [4, 1024, 1024] = [basis, unit, input]. -/
def w3 (w : (⟨3, ![4, 1024, 1024]⟩ : Shape).Idx → EReal) : Fin 4096 → Fin 1024 → EReal :=
  fun k d => w (ix3 (hi k) (lo k) d)
/-- The projection biases as the arguments store them, [4, 1024] = [basis, unit]. -/
def b2 (b : (⟨2, ![4, 1024]⟩ : Shape).Idx → EReal) : Fin 4096 → EReal := fun k => b (ix2 (hi k) (lo k))
/-- The output weights as the arguments store them, [1024, 4096] = [output, hidden]. -/
def m2 (w : (⟨2, ![1024, 4096]⟩ : Shape).Idx → EReal) : Fin 1024 → Fin 4096 → EReal := fun d k => w (ix2 d k)
/-- A vector of 1024 as the arguments store it. -/
def v1 (v : (⟨1, ![1024]⟩ : Shape).Idx → EReal) : Fin 1024 → EReal := fun d => v (ix1 d)

/-- One block of the network over the argument arrays. -/
def blockOf (x : Act) (wr : (⟨3, ![4, 1024, 1024]⟩ : Shape).Idx → EReal) (br : (⟨2, ![4, 1024]⟩ : Shape).Idx → EReal)
    (wl : (⟨3, ![4, 1024, 1024]⟩ : Shape).Idx → EReal) (bl : (⟨2, ![4, 1024]⟩ : Shape).Idx → EReal)
    (we : (⟨2, ![1024, 4096]⟩ : Shape).Idx → EReal) (be g b : (⟨1, ![1024]⟩ : Shape).Idx → EReal) : Act :=
  blockArr x (w3 wr) (b2 br) (w3 wl) (b2 bl) (m2 we) (v1 be) (v1 g) (v1 b)

/-- The linear head: `out n j = (∑ d, h n d · wf j d) + bf j`. -/
def headArr (h : Act) (wf : (⟨2, ![10, 1024]⟩ : Shape).Idx → EReal) (bf : (⟨1, ![10]⟩ : Shape).Idx → EReal) :
    (⟨2, ![16384, 10]⟩ : Shape).Idx → EReal :=
  fun i => (∑ d : Fin 1024, h (ix2 (i 0) d) * wf (ix2 (i 1) d)) + bf (ix1 (i 1))

theorem headArr_apply (h : Act) (wf : (⟨2, ![10, 1024]⟩ : Shape).Idx → EReal) (bf : (⟨1, ![10]⟩ : Shape).Idx → EReal)
    (n : Fin 16384) (j : Fin 10) :
    headArr h wf bf (ix2 n j) = (∑ d : Fin 1024, h (ix2 n d) * wf (ix2 j d)) + bf (ix1 j) := rfl

end Cert.Spec

end
-- ==== Proof.KBody0.lean ====
/-
  What region 0's kernel body leaves in its output block, read at one entry.

  The body loads a block of 128 rows of the activations and the whole weight arrays, and stores
  one value per entry of the block.  Entry (p, d) of what it stores depends only on row p of
  the loaded block: it is `Spec.blockRow` of that row, the weights read as the body's matrix products
  index them (the two projection matrices [input, hidden], the output matrix [hidden, output], every
  bias and the gain and offset as one row).

  The road: the two matrix products read at an entry as sums over the contracted coordinate; the row and
  column broadcasts and the casts read at an entry; then the layer's output with its residual is `Spec.pre`
  of the row, the column of row means is `Spec.mean` of it, the column of variances the mean of its squared
  deviations, and the stored value the normalisation `Spec.lnRow` of it.
-/
import proofs.«150766_j26225070309871_1_alg».proof.Proof.Gen.KernelIdeal.Frame
import proofs.«150766_j26225070309871_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body0

open Cert.KernelIdeal Cert.KernelIdeal.Gen
open Idealize.ShloMosaic Idealize.ShloMosaic.TcCoe Idealize.ShloMosaic.ValueIdx

/-- The zero offsets of a whole-block access, however spelt. -/
private theorem hz : (![0, 0] : Fin 2 → Nat) = fun _ => 0 := funext fun a => by fin_cases a <;> rfl

/-! ## The two matrix products read at an entry

The first product contracts a [128, 1024] block with a [1024, 4096] matrix over the 1024 inputs; the second contracts
the [128, 4096] hidden block with a [4096, 1024] matrix over the 4096 hidden units.  The operand indices at result
index (p, k) and contraction position q are (p, q) and (q, k), coordinate by coordinate. -/

private theorem lhsA_0 (j : S128x4096.Idx) (k : dot_S128x1024_S1024x4096_S128x4096_1_0_0_1_n_n.contr.Idx) :
    (dot_S128x1024_S1024x4096_S128x4096_1_0_0_1_n_n.lhsIdx j k 0).val = (j 0).val := rfl
private theorem lhsA_1 (j : S128x4096.Idx) (k : dot_S128x1024_S1024x4096_S128x4096_1_0_0_1_n_n.contr.Idx) :
    (dot_S128x1024_S1024x4096_S128x4096_1_0_0_1_n_n.lhsIdx j k 1).val = (k ⟨0, by decide⟩).val := rfl
private theorem rhsA_0 (j : S128x4096.Idx) (k : dot_S128x1024_S1024x4096_S128x4096_1_0_0_1_n_n.contr.Idx) :
    (dot_S128x1024_S1024x4096_S128x4096_1_0_0_1_n_n.rhsIdx j k 0).val = (k ⟨0, by decide⟩).val := rfl
private theorem rhsA_1 (j : S128x4096.Idx) (k : dot_S128x1024_S1024x4096_S128x4096_1_0_0_1_n_n.contr.Idx) :
    (dot_S128x1024_S1024x4096_S128x4096_1_0_0_1_n_n.rhsIdx j k 1).val = (j 1).val := rfl

private theorem lhsB_0 (j : S128x1024.Idx) (k : dot_S128x4096_S4096x1024_S128x1024_1_0_0_1_n_n.contr.Idx) :
    (dot_S128x4096_S4096x1024_S128x1024_1_0_0_1_n_n.lhsIdx j k 0).val = (j 0).val := rfl
private theorem lhsB_1 (j : S128x1024.Idx) (k : dot_S128x4096_S4096x1024_S128x1024_1_0_0_1_n_n.contr.Idx) :
    (dot_S128x4096_S4096x1024_S128x1024_1_0_0_1_n_n.lhsIdx j k 1).val = (k ⟨0, by decide⟩).val := rfl
private theorem rhsB_0 (j : S128x1024.Idx) (k : dot_S128x4096_S4096x1024_S128x1024_1_0_0_1_n_n.contr.Idx) :
    (dot_S128x4096_S4096x1024_S128x1024_1_0_0_1_n_n.rhsIdx j k 0).val = (k ⟨0, by decide⟩).val := rfl
private theorem rhsB_1 (j : S128x1024.Idx) (k : dot_S128x4096_S4096x1024_S128x1024_1_0_0_1_n_n.contr.Idx) :
    (dot_S128x4096_S4096x1024_S128x1024_1_0_0_1_n_n.rhsIdx j k 1).val = (j 1).val := rfl

/-- The first product into the zero block, at (p, k): the sum over the inputs d' of a (p, d') · b (d', k). -/
private theorem matmulA_apply (a : FVec Ideal S128x1024 .bf16) (b : FVec Ideal S1024x4096 .bf16) (p : Fin 128) (k : Fin 4096) :
    matmul dot_S128x1024_S1024x4096_S128x4096_1_0_0_1_n_n none a b (constant (F := Ideal) S128x4096 .f32 0x00000000#32) (ix2 p k)
      = ∑ d' : Fin 1024, a (ix2 p d') * b (ix2 d' k) := by
  refine (Ideal.matmul_constant_zero_apply dot_S128x1024_S1024x4096_S128x4096_1_0_0_1_n_n none a b (ix2 p k)).trans ?_
  rw [← Equiv.sum_comp (contrEquiv1 dot_S128x1024_S1024x4096_S128x4096_1_0_0_1_n_n 1024 rfl rfl).symm]
  refine Finset.sum_congr rfl fun q _ => ?_
  have hq := contrEquiv1_symm_val dot_S128x1024_S1024x4096_S128x4096_1_0_0_1_n_n 1024 rfl rfl q
  have hl : dot_S128x1024_S1024x4096_S128x4096_1_0_0_1_n_n.lhsIdx (ix2 p k)
      ((contrEquiv1 dot_S128x1024_S1024x4096_S128x4096_1_0_0_1_n_n 1024 rfl rfl).symm q) = ix2 p q :=
    funext fun ax => Fin.ext (by
      match ax with
      | ⟨0, _⟩ => exact lhsA_0 _ _
      | ⟨1, _⟩ => exact (lhsA_1 _ _).trans hq)
  have hr : dot_S128x1024_S1024x4096_S128x4096_1_0_0_1_n_n.rhsIdx (ix2 p k)
      ((contrEquiv1 dot_S128x1024_S1024x4096_S128x4096_1_0_0_1_n_n 1024 rfl rfl).symm q) = ix2 q k :=
    funext fun ax => Fin.ext (by
      match ax with
      | ⟨0, _⟩ => exact (rhsA_0 _ _).trans hq
      | ⟨1, _⟩ => exact rhsA_1 _ _)
  rw [hl, hr]

/-- The second product into the zero block, at (p, d): the sum over the hidden units k of a (p, k) · b (k, d). -/
private theorem matmulB_apply (a : FVec Ideal S128x4096 .bf16) (b : FVec Ideal S4096x1024 .bf16) (p : Fin 128) (d : Fin 1024) :
    matmul dot_S128x4096_S4096x1024_S128x1024_1_0_0_1_n_n none a b (constant (F := Ideal) S128x1024 .f32 0x00000000#32) (ix2 p d)
      = ∑ k : Fin 4096, a (ix2 p k) * b (ix2 k d) := by
  refine (Ideal.matmul_constant_zero_apply dot_S128x4096_S4096x1024_S128x1024_1_0_0_1_n_n none a b (ix2 p d)).trans ?_
  rw [← Equiv.sum_comp (contrEquiv1 dot_S128x4096_S4096x1024_S128x1024_1_0_0_1_n_n 4096 rfl rfl).symm]
  refine Finset.sum_congr rfl fun q _ => ?_
  have hq := contrEquiv1_symm_val dot_S128x4096_S4096x1024_S128x1024_1_0_0_1_n_n 4096 rfl rfl q
  have hl : dot_S128x4096_S4096x1024_S128x1024_1_0_0_1_n_n.lhsIdx (ix2 p d)
      ((contrEquiv1 dot_S128x4096_S4096x1024_S128x1024_1_0_0_1_n_n 4096 rfl rfl).symm q) = ix2 p q :=
    funext fun ax => Fin.ext (by
      match ax with
      | ⟨0, _⟩ => exact lhsB_0 _ _
      | ⟨1, _⟩ => exact (lhsB_1 _ _).trans hq)
  have hr : dot_S128x4096_S4096x1024_S128x1024_1_0_0_1_n_n.rhsIdx (ix2 p d)
      ((contrEquiv1 dot_S128x4096_S4096x1024_S128x1024_1_0_0_1_n_n 4096 rfl rfl).symm q) = ix2 q d :=
    funext fun ax => Fin.ext (by
      match ax with
      | ⟨0, _⟩ => exact (rhsB_0 _ _).trans hq
      | ⟨1, _⟩ => exact rhsB_1 _ _)
  rw [hl, hr]

/-! ## The layout operations of the body read at an entry -/

/-- A column [128, 1] broadcast along the rows' entries reads, at (p, d), the column's entry p. -/
private theorem bcastCol_apply {α : Type} (v : S128x1.Idx → α) (p : Fin 128) (d : Fin 1024) :
    broadcastTo S128x1024 v broadcasts_S128x1_S128x1024 (ix2 p d) = v (ix2 p (0 : Fin 1)) := by
  refine broadcastTo_apply v broadcasts_S128x1_S128x1024 (ix2 p d) (ix2 p (0 : Fin 1)) fun ax => ?_
  match ax with
  | ⟨0, _⟩ => rfl
  | ⟨1, _⟩ => rfl

/-- A vector [128] cast to a column [128, 1] reads, at (p, 0), the vector's entry p. -/
private theorem castCol_apply {α : Type} (v : S128.Idx → α) (p : Fin 128) :
    shapeCast S128x1 v shapeCasts_S128_S128x1 (ix2 p (0 : Fin 1)) = v (ix1 p) :=
  shapeCast_apply v shapeCasts_S128_S128x1 _ _ (by
    rw [Shape.rowMajor_val_one, Shape.rowMajor_val_two]
    show p.val = p.val * 1 + 0
    omega)

/-- The sum along a row's entries inserts the entry's coordinate after the row's. -/
private theorem lift_row (p : Fin 128) (d : Fin 1024) : reduces_S128x1024_S128.lift (ix1 p) d = ix2 p d :=
  funext fun ax => Fin.ext (by
    match ax with
    | ⟨0, _⟩ => rfl
    | ⟨1, _⟩ => rfl)

/-- A reciprocal square root at an entry is the extended reals' one of the entry. -/
private theorem rsqrt_apply {s : Shape} {φ : FTy} (a : FVec Ideal s φ) (i : s.Idx) : rsqrt a i = Ideal.rsqrt (a i) := rfl

/-! ## The bilinear layer with its residual -/

/-- An affine map into the hidden units at (p, k): the product's sum plus the bias row's entry k. -/
private theorem proj_apply (x0 : FVec Ideal S128x1024 .f32) (w : FVec Ideal S1024x4096 .bf16) (b : FVec Ideal S1x4096 .f32)
    (p : Fin 128) (k : Fin 4096) :
    addf (matmul dot_S128x1024_S1024x4096_S128x4096_1_0_0_1_n_n none (truncf .bf16 x0 bitsLt_bf16_f32) w
          (constant (F := Ideal) S128x4096 .f32 0x00000000#32))
        (broadcastTo S128x4096 b broadcasts_S1x4096_S128x4096) (ix2 p k)
      = Cert.Spec.proj (fun d' => x0 (ix2 p d')) (fun k d' => w (ix2 d' k)) (fun k => b (ix2 0 k)) k := by
  unfold Cert.Spec.proj
  refine (addf_apply _ _ _).trans ?_
  exact congrArg₂ (· + ·) (matmulA_apply _ _ p k) (broadcastTo_1b_ab_apply _ _ p k)

/-- Entry (p, d) of the layer's output with its residual is `Spec.pre` of row p. -/
private theorem pay2_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) (d : Fin 1024) :
    k0_pay2 (F := Ideal) x0 x1 x2 x3 x4 x5 x6 (ix2 p d)
      = Cert.Spec.pre (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d')) d := by
  unfold k0_pay2 Cert.Spec.pre
  dsimp only
  simp only [shapeCast_self]
  refine (addf_apply _ _ _).trans ?_
  refine congrArg (x0 (ix2 p d) + ·) ?_
  refine (addf_apply _ _ _).trans ?_
  refine congrArg₂ (· + ·) ?_ ?_
  · refine (matmulB_apply _ _ p d).trans ?_
    refine Finset.sum_congr rfl fun k _ => ?_
    refine congrArg (· * x5 (ix2 k d)) ?_
    refine (truncf_apply (φ := .f32) (ψ := .bf16) _ bitsLt_bf16_f32 (ix2 p k)).trans ((mulf_apply _ _ _).trans ?_)
    exact congrArg₂ (· * ·) (proj_apply x0 x1 x2 p k) (proj_apply x0 x3 x4 p k)
  · exact broadcastTo_1b_ab_apply _ _ p d

/-! ## The mean and the variance of a row, and the normalisation -/

/-- The row-sum of a block divided by the row length, at (p, 0): the mean of row p. -/
private theorem meanCol_apply (h : FVec Ideal S128x1024 .f32) (p : Fin 128) :
    divf (shapeCast S128x1 (multiReduction (F := Ideal) .add [1] S128 h 0x00000000#32 reduces_S128x1024_S128 (.inl rfl) rfl)
          shapeCasts_S128_S128x1)
        (broadcast S128x1 (Scalar.ofBits (F := Ideal) .f32 0x44800000#32)) (ix2 p (0 : Fin 1))
      = Cert.Spec.mean (fun d' => h (ix2 p d')) := by
  unfold Cert.Spec.mean
  refine (divf_apply _ _ _).trans ?_
  refine congrArg₂ Ideal.div ?_ rfl
  refine (castCol_apply _ p).trans ?_
  refine (Ideal.multiReduction_add_single h 0x00000000#32 reduces_S128x1024_S128 (.inl rfl) rfl (ix1 p)).trans ?_
  exact Finset.sum_congr rfl fun d _ => congrArg h (lift_row p d)

/-- Entry (p, 0) of the mean column is the mean of `Spec.pre` of row p. -/
private theorem pay3_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) :
    k0_pay3 (F := Ideal) x0 x1 x2 x3 x4 x5 x6 (ix2 p (0 : Fin 1))
      = Cert.Spec.mean (Cert.Spec.pre (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d'))) := by
  unfold k0_pay3
  dsimp only
  refine (meanCol_apply (k0_pay2 (F := Ideal) x0 x1 x2 x3 x4 x5 x6) p).trans ?_
  exact congrArg Cert.Spec.mean (funext fun d => pay2_apply x0 x1 x2 x3 x4 x5 x6 p d)

/-- Entry (p, 0) of the variance column is the mean of the squared deviations of `Spec.pre` of row p from its mean. -/
private theorem pay4_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) (h : Fin 1024 → EReal)
    (hh : h = Cert.Spec.pre (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d'))) :
    k0_pay4 (F := Ideal) x0 x1 x2 x3 x4 x5 x6 (ix2 p (0 : Fin 1))
      = Cert.Spec.mean (fun d' => (h d' - Cert.Spec.mean h) * (h d' - Cert.Spec.mean h)) := by
  subst hh
  unfold k0_pay4
  dsimp only
  refine (meanCol_apply _ p).trans ?_
  refine congrArg Cert.Spec.mean (funext fun d => ?_)
  refine (mulf_apply _ _ _).trans ?_
  have e : subf (k0_pay2 (F := Ideal) x0 x1 x2 x3 x4 x5 x6)
        (broadcastTo S128x1024 (k0_pay3 (F := Ideal) x0 x1 x2 x3 x4 x5 x6) broadcasts_S128x1_S128x1024) (ix2 p d)
      = Cert.Spec.pre (fun d' => x0 (ix2 p d')) (fun k d' => x1 (ix2 d' k)) (fun k => x2 (ix2 0 k))
          (fun k d' => x3 (ix2 d' k)) (fun k => x4 (ix2 0 k)) (fun d' k => x5 (ix2 k d')) (fun d' => x6 (ix2 0 d')) d
        - Cert.Spec.mean (Cert.Spec.pre (fun d' => x0 (ix2 p d')) (fun k d' => x1 (ix2 d' k)) (fun k => x2 (ix2 0 k))
          (fun k d' => x3 (ix2 d' k)) (fun k => x4 (ix2 0 k)) (fun d' k => x5 (ix2 k d')) (fun d' => x6 (ix2 0 d'))) := by
    refine (subf_apply _ _ _).trans ?_
    exact congrArg₂ (· - ·) (pay2_apply x0 x1 x2 x3 x4 x5 x6 p d)
      ((bcastCol_apply _ p d).trans (pay3_apply x0 x1 x2 x3 x4 x5 x6 p))
  exact congrArg₂ (· * ·) e e

/-- Entry (p, d) of the stored block from the layer's output, the variance column and the broadcast mean: the
    normalisation of row p, at entry d. -/
private theorem pay1_apply (v25 : FVec Ideal S128x1024 .f32) (v36 : FVec Ideal S128x1 .f32) (v37 : FVec Ideal S128x1024 .f32)
    (x7 x8 : Vec Ideal S1x1024 .f32) (p : Fin 128) (d : Fin 1024) :
    k0_pay1 (F := Ideal) v25 v36 v37 x7 x8 (ix2 p d)
      = ((v25 (ix2 p d) - v37 (ix2 p d)) * Ideal.rsqrt (v36 (ix2 p (0 : Fin 1)) + Cert.Spec.eps)) * x7 (ix2 0 d) + x8 (ix2 0 d) := by
  unfold k0_pay1
  simp only [shapeCast_self]
  refine (addf_apply _ _ _).trans ?_
  refine congrArg₂ (· + ·) ?_ (broadcastTo_1b_ab_apply _ _ p d)
  refine (mulf_apply _ _ _).trans ?_
  refine congrArg₂ (· * ·) ?_ (broadcastTo_1b_ab_apply _ _ p d)
  refine (mulf_apply _ _ _).trans ?_
  refine congrArg₂ (· * ·) (subf_apply _ _ _) ?_
  refine (bcastCol_apply _ p d).trans ?_
  refine (rsqrt_apply _ _).trans ?_
  rfl

/-- Entry (p, d) of region 0's stored block is the block function of row p of the loaded activations. -/
theorem out_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (x7 : Vec Ideal S1x1024 .f32) (x8 : Vec Ideal S1x1024 .f32)
    (p : Fin 128) (d : Fin 1024) :
    out0_9 (F := Ideal) x0 x1 x2 x3 x4 x5 x6 x7 x8 (ix2 p d)
      = Cert.Spec.blockRow (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d')) (fun d' => x7 (ix2 0 d')) (fun d' => x8 (ix2 0 d')) d := by
  unfold out0_9
  rw [View.canon_unit_zero hz]
  simp only [View.ld_unit_zero (S := S128x1024) hz, View.ld_unit_zero (S := S1024x4096) hz, View.ld_unit_zero (S := S1x4096) hz,
    View.ld_unit_zero (S := S4096x1024) hz, View.ld_unit_zero (S := S1x1024) hz]
  refine (pay1_apply _ _ _ x7 x8 p d).trans ?_
  unfold Cert.Spec.blockRow Cert.Spec.lnRow
  rw [pay2_apply x0 x1 x2 x3 x4 x5 x6 p d, pay4_apply x0 x1 x2 x3 x4 x5 x6 p _ rfl]
  unfold k0_pay5
  dsimp only
  rw [bcastCol_apply _ p d, pay3_apply x0 x1 x2 x3 x4 x5 x6 p]

end Cert.KernelIdeal.Body0

end
-- ==== Proof.KBlocks0.lean ====
/-
  Region 0's output array after the region, as one function of the arrays the region finds.

  The region has 128 grid points; point t stages rows 128·t … 128·t + 127 of the activations (all 1024
  columns) and the whole of every weight array (their index maps are constant), and writes back rows
  128·t … 128·t + 127 of the output.  Since an entry of the stored block depends only on its own row of the
  loaded block (`Body0.out_apply`), what point t writes back is block t of `Spec.blockArr` of the entry
  arrays; the 128 blocks tile the 16384 rows, so the array ends holding that function everywhere.
-/
import proofs.«150766_j26225070309871_1_alg».proof.Proof.Gen.KernelIdeal.Frame
import proofs.«150766_j26225070309871_1_alg».proof.Proof.Spec
import proofs.«150766_j26225070309871_1_alg».proof.Proof.KBody0
import Idealize.ShloMosaic.Lib.ValueIdx
import Idealize.ShloMosaic.Lib.Pipeline.Value

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The specification's block of the arrays region 0 finds: the activations in `main_arg0`, the weights as the host
    stretch before the region laid them out (projection matrices [input, hidden], output matrix [hidden, output],
    biases, gain and offset as single rows). -/
def entryFn (c : Dev nD) : Cert.Spec.Act :=
  Cert.Spec.blockArr (V c main_arg0 : S16384x1024.Idx → EReal)
    (fun k d => (V c main_v2 : S1024x4096.Idx → EReal) (ix2 d k)) (fun k => (V c main_v8 : S1x4096.Idx → EReal) (ix2 0 k))
    (fun k d => (V c main_v5 : S1024x4096.Idx → EReal) (ix2 d k)) (fun k => (V c main_v9 : S1x4096.Idx → EReal) (ix2 0 k))
    (fun d k => (V c main_v7 : S4096x1024.Idx → EReal) (ix2 k d)) (fun d => (V c main_v10 : S1x1024.Idx → EReal) (ix2 0 d))
    (fun d => (V c main_v11 : S1x1024.Idx → EReal) (ix2 0 d)) (fun d => (V c main_v12 : S1x1024.Idx → EReal) (ix2 0 d))

/-- The printed index maps, decided over the grid: the activations' window and the output's step one block of
    128 rows per point and keep column block 0; every weight window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The activations' block at point `t` is rows `128·t … 128·t + 127` of the array. -/
theorem iblk_0_apply (c : Dev nD) (t : Fin cfg0.N) (p : Fin 128) (d : Fin 1024) (n : Fin 16384)
    (hn : n.val = 128 * t.val + p.val) :
    (iblk0 V c 0 t : Vec Ideal S128x1024 .f32) (ix2 p d) = (V c main_arg0 : S16384x1024.Idx → EReal) (ix2 n d) := by
  obtain ⟨e0, e1, -⟩ := idx_facts t
  unfold iblk0
  rw [View.read_apply]
  show (V c main_arg0 : S16384x1024.Idx → EReal) _ = _
  congr 1
  funext a
  apply Fin.ext
  match a with
  | ⟨0, _⟩ => show win0_0.index t (0 : Fin 2) * 128 + 1 * p.val = n.val; rw [e0, hn]; omega
  | ⟨1, _⟩ => show win0_0.index t (1 : Fin 2) * 1024 + 1 * d.val = d.val; rw [e1]; omega

/-- Window 1's block at any point is the whole first projection matrix array. -/
theorem iblk_1_apply (c : Dev nD) (t : Fin cfg0.N) (a : Fin 1024) (b : Fin 4096) :
    (iblk0 V c 1 t : Vec Ideal S1024x4096 .bf16) (ix2 a b) = (V c main_v2 : S1024x4096.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v2 : S1024x4096.Idx → EReal) _ = _
  congr 1
  funext x
  apply Fin.ext
  match x with
  | ⟨0, _⟩ => show win0_1.index t (0 : Fin 2) * 1024 + 1 * a.val = a.val; rw [e10]; omega
  | ⟨1, _⟩ => show win0_1.index t (1 : Fin 2) * 4096 + 1 * b.val = b.val; rw [e11]; omega

/-- Window 2's block at any point is the whole first projection bias array. -/
theorem iblk_2_apply (c : Dev nD) (t : Fin cfg0.N) (a : Fin 1) (b : Fin 4096) :
    (iblk0 V c 2 t : Vec Ideal S1x4096 .f32) (ix2 a b) = (V c main_v8 : S1x4096.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v8 : S1x4096.Idx → EReal) _ = _
  congr 1
  funext x
  apply Fin.ext
  match x with
  | ⟨0, _⟩ => show win0_2.index t (0 : Fin 2) * 1 + 1 * a.val = a.val; rw [e20]; omega
  | ⟨1, _⟩ => show win0_2.index t (1 : Fin 2) * 4096 + 1 * b.val = b.val; rw [e21]; omega

/-- Window 3's block at any point is the whole second projection matrix array. -/
theorem iblk_3_apply (c : Dev nD) (t : Fin cfg0.N) (a : Fin 1024) (b : Fin 4096) :
    (iblk0 V c 3 t : Vec Ideal S1024x4096 .bf16) (ix2 a b) = (V c main_v5 : S1024x4096.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v5 : S1024x4096.Idx → EReal) _ = _
  congr 1
  funext x
  apply Fin.ext
  match x with
  | ⟨0, _⟩ => show win0_3.index t (0 : Fin 2) * 1024 + 1 * a.val = a.val; rw [e30]; omega
  | ⟨1, _⟩ => show win0_3.index t (1 : Fin 2) * 4096 + 1 * b.val = b.val; rw [e31]; omega

/-- Window 4's block at any point is the whole second projection bias array. -/
theorem iblk_4_apply (c : Dev nD) (t : Fin cfg0.N) (a : Fin 1) (b : Fin 4096) :
    (iblk0 V c 4 t : Vec Ideal S1x4096 .f32) (ix2 a b) = (V c main_v9 : S1x4096.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v9 : S1x4096.Idx → EReal) _ = _
  congr 1
  funext x
  apply Fin.ext
  match x with
  | ⟨0, _⟩ => show win0_4.index t (0 : Fin 2) * 1 + 1 * a.val = a.val; rw [e40]; omega
  | ⟨1, _⟩ => show win0_4.index t (1 : Fin 2) * 4096 + 1 * b.val = b.val; rw [e41]; omega

/-- Window 5's block at any point is the whole output matrix array. -/
theorem iblk_5_apply (c : Dev nD) (t : Fin cfg0.N) (a : Fin 4096) (b : Fin 1024) :
    (iblk0 V c 5 t : Vec Ideal S4096x1024 .bf16) (ix2 a b) = (V c main_v7 : S4096x1024.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v7 : S4096x1024.Idx → EReal) _ = _
  congr 1
  funext x
  apply Fin.ext
  match x with
  | ⟨0, _⟩ => show win0_5.index t (0 : Fin 2) * 4096 + 1 * a.val = a.val; rw [e50]; omega
  | ⟨1, _⟩ => show win0_5.index t (1 : Fin 2) * 1024 + 1 * b.val = b.val; rw [e51]; omega

/-- Window 6's block at any point is the whole output bias array. -/
theorem iblk_6_apply (c : Dev nD) (t : Fin cfg0.N) (a : Fin 1) (b : Fin 1024) :
    (iblk0 V c 6 t : Vec Ideal S1x1024 .f32) (ix2 a b) = (V c main_v10 : S1x1024.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v10 : S1x1024.Idx → EReal) _ = _
  congr 1
  funext x
  apply Fin.ext
  match x with
  | ⟨0, _⟩ => show win0_6.index t (0 : Fin 2) * 1 + 1 * a.val = a.val; rw [e60]; omega
  | ⟨1, _⟩ => show win0_6.index t (1 : Fin 2) * 1024 + 1 * b.val = b.val; rw [e61]; omega

/-- Window 7's block at any point is the whole gain array. -/
theorem iblk_7_apply (c : Dev nD) (t : Fin cfg0.N) (a : Fin 1) (b : Fin 1024) :
    (iblk0 V c 7 t : Vec Ideal S1x1024 .f32) (ix2 a b) = (V c main_v11 : S1x1024.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v11 : S1x1024.Idx → EReal) _ = _
  congr 1
  funext x
  apply Fin.ext
  match x with
  | ⟨0, _⟩ => show win0_7.index t (0 : Fin 2) * 1 + 1 * a.val = a.val; rw [e70]; omega
  | ⟨1, _⟩ => show win0_7.index t (1 : Fin 2) * 1024 + 1 * b.val = b.val; rw [e71]; omega

/-- Window 8's block at any point is the whole offset array. -/
theorem iblk_8_apply (c : Dev nD) (t : Fin cfg0.N) (a : Fin 1) (b : Fin 1024) :
    (iblk0 V c 8 t : Vec Ideal S1x1024 .f32) (ix2 a b) = (V c main_v12 : S1x1024.Idx → EReal) (ix2 a b) := by
  obtain ⟨e0, e1, e90, e91, e10, e11, e20, e21, e30, e31, e40, e41, e50, e51, e60, e61, e70, e71, e80, e81⟩ := idx_facts t
  unfold iblk0
  rw [View.read_apply]
  show (V c main_v12 : S1x1024.Idx → EReal) _ = _
  congr 1
  funext x
  apply Fin.ext
  match x with
  | ⟨0, _⟩ => show win0_8.index t (0 : Fin 2) * 1 + 1 * a.val = a.val; rw [e80]; omega
  | ⟨1, _⟩ => show win0_8.index t (1 : Fin 2) * 1024 + 1 * b.val = b.val; rw [e81]; omega

/-- Entry (p, d) of what point `t` leaves in the output's block is entry (128·t + p, d) of the specification's
    block of the entry arrays: the body's entry is the block function of row p of the loaded block, which is row
    128·t + p of the activations, and every loaded weight block is its whole array. -/
theorem out_blk (c : Dev nD) (t : Fin cfg0.N) (p : Fin 128) (d : Fin 1024) (n : Fin 16384)
    (hn : n.val = 128 * t.val + p.val) :
    out0_9 (F := Ideal) (iblk0 V c 0 t) (iblk0 V c 1 t) (iblk0 V c 2 t) (iblk0 V c 3 t) (iblk0 V c 4 t)
        (iblk0 V c 5 t) (iblk0 V c 6 t) (iblk0 V c 7 t) (iblk0 V c 8 t) (ix2 p d)
      = entryFn V c (ix2 n d) := by
  have h0 : (fun d' => (iblk0 V c 0 t : Vec Ideal S128x1024 .f32) (ix2 p d'))
      = fun d' => (V c main_arg0 : S16384x1024.Idx → EReal) (ix2 n d') :=
    funext fun d' => iblk_0_apply V c t p d' n hn
  have h1 : (fun k d' => (iblk0 V c 1 t : Vec Ideal S1024x4096 .bf16) (ix2 d' k))
      = fun k d' => (V c main_v2 : S1024x4096.Idx → EReal) (ix2 d' k) :=
    funext fun k => funext fun d' => iblk_1_apply V c t d' k
  have h2 : (fun k => (iblk0 V c 2 t : Vec Ideal S1x4096 .f32) (ix2 0 k))
      = fun k => (V c main_v8 : S1x4096.Idx → EReal) (ix2 0 k) :=
    funext fun k => iblk_2_apply V c t 0 k
  have h3 : (fun k d' => (iblk0 V c 3 t : Vec Ideal S1024x4096 .bf16) (ix2 d' k))
      = fun k d' => (V c main_v5 : S1024x4096.Idx → EReal) (ix2 d' k) :=
    funext fun k => funext fun d' => iblk_3_apply V c t d' k
  have h4 : (fun k => (iblk0 V c 4 t : Vec Ideal S1x4096 .f32) (ix2 0 k))
      = fun k => (V c main_v9 : S1x4096.Idx → EReal) (ix2 0 k) :=
    funext fun k => iblk_4_apply V c t 0 k
  have h5 : (fun d' k => (iblk0 V c 5 t : Vec Ideal S4096x1024 .bf16) (ix2 k d'))
      = fun d' k => (V c main_v7 : S4096x1024.Idx → EReal) (ix2 k d') :=
    funext fun d' => funext fun k => iblk_5_apply V c t k d'
  have h6 : (fun d' => (iblk0 V c 6 t : Vec Ideal S1x1024 .f32) (ix2 0 d'))
      = fun d' => (V c main_v10 : S1x1024.Idx → EReal) (ix2 0 d') :=
    funext fun d' => iblk_6_apply V c t 0 d'
  have h7 : (fun d' => (iblk0 V c 7 t : Vec Ideal S1x1024 .f32) (ix2 0 d'))
      = fun d' => (V c main_v11 : S1x1024.Idx → EReal) (ix2 0 d') :=
    funext fun d' => iblk_7_apply V c t 0 d'
  have h8 : (fun d' => (iblk0 V c 8 t : Vec Ideal S1x1024 .f32) (ix2 0 d'))
      = fun d' => (V c main_v12 : S1x1024.Idx → EReal) (ix2 0 d') :=
    funext fun d' => iblk_8_apply V c t 0 d'
  refine (Body0.out_apply _ _ _ _ _ _ _ _ _ p d).trans ?_
  unfold entryFn
  rw [Cert.Spec.blockArr_apply, h0, h1, h2, h3, h4, h5, h6, h7, h8]

/-- What point `t` writes back is block `t` of the specification's block of the entry arrays. -/
theorem flushed_eq (c : Dev nD) (t : Fin cfg0.N) :
    (dat0 (F := Ideal) V c).flushed 9 t = ((cfg0.win 9).blk t).view.read (Elt Ideal) (entryFn V c) := by
  show (cfg0.win 9).cut (grid0.coords t) ((dat0 (F := Ideal) V c).after 9 t) = _
  rw [after0_9]
  obtain ⟨e0, e1, e90, e91, -⟩ := idx_facts t
  have hN : cfg0.N = 128 := N_0
  have ht : t.val < cfg0.N := t.isLt
  have key : ∀ (p : Fin 128) (d : Fin 1024),
      out0_9 (F := Ideal) (iblk0 V c 0 t) (iblk0 V c 1 t) (iblk0 V c 2 t) (iblk0 V c 3 t) (iblk0 V c 4 t)
          (iblk0 V c 5 t) (iblk0 V c 6 t) (iblk0 V c 7 t) (iblk0 V c 8 t) (ix2 p d)
        = entryFn V c (((cfg0.win 9).blk t).view.emb (ix2 p d)) := by
    intro p d
    have hp : p.val < 128 := p.isLt
    refine (out_blk V c t p d ⟨128 * t.val + p.val, by omega⟩ rfl).trans ?_
    congr 1
    funext a
    apply Fin.ext
    match a with
    | ⟨0, _⟩ => show 128 * t.val + p.val = win0_9.index t (0 : Fin 2) * 128 + 1 * p.val; rw [e90]; omega
    | ⟨1, _⟩ => show d.val = win0_9.index t (1 : Fin 2) * 1024 + 1 * d.val; rw [e91]; omega
  have key' : ∀ j : S128x1024.Idx,
      out0_9 (F := Ideal) (iblk0 V c 0 t) (iblk0 V c 1 t) (iblk0 V c 2 t) (iblk0 V c 3 t) (iblk0 V c 4 t)
          (iblk0 V c 5 t) (iblk0 V c 6 t) (iblk0 V c 7 t) (iblk0 V c 8 t) j
        = entryFn V c (((cfg0.win 9).blk t).view.emb j) := by
    intro j
    rw [eq_ix2 j]
    exact key (j 0) (j 1)
  funext j
  exact key' j

/-- An index of the output array is in point `t`'s block iff each coordinate is in the block's range on its axis. -/
theorem mem_blk (t : Fin cfg0.N) (i : S16384x1024.Idx) :
    i ∈ ((cfg0.win 9).blk t).view.set
      ↔ ∀ a : Fin 2, win0_9.index t a * S128x1024.size a ≤ (i a).val
          ∧ (i a).val < win0_9.index t a * S128x1024.size a + S128x1024.size a := by
  show i ∈ ((View.whole main_v13).slice (win0_9.rect t)).set ↔ _
  rw [View.set_slice_whole, Rect.mem_set_unit]
  exact Iff.rfl

/-- The 128 blocks tile the rows: row `r` is in the block of point `⌊r / 128⌋`, which writes back. -/
theorem cover (i : S16384x1024.Idx) :
    ∃ t : Fin cfg0.N, (cfg0.win 9).flush t = true ∧ i ∈ ((cfg0.win 9).blk t).view.set := by
  have hN : cfg0.N = 128 := N_0
  have hi0 : (i 0).val < 16384 := (i 0).isLt
  have hi1 : (i 1).val < 1024 := (i 1).isLt
  have hq : (i 0).val / 128 < cfg0.N := by omega
  obtain ⟨-, -, e90, e91, -⟩ := idx_facts ⟨(i 0).val / 128, hq⟩
  refine ⟨⟨(i 0).val / 128, hq⟩, flush0_9 _, ?_⟩
  rw [mem_blk]
  intro a
  match a with
  | ⟨0, _⟩ =>
    show win0_9.index ⟨(i 0).val / 128, hq⟩ (0 : Fin 2) * 128 ≤ (i 0).val
      ∧ (i 0).val < win0_9.index ⟨(i 0).val / 128, hq⟩ (0 : Fin 2) * 128 + 128
    rw [e90]
    show (i 0).val / 128 * 128 ≤ (i 0).val ∧ (i 0).val < (i 0).val / 128 * 128 + 128
    omega
  | ⟨1, _⟩ =>
    show win0_9.index ⟨(i 0).val / 128, hq⟩ (1 : Fin 2) * 1024 ≤ (i 1).val
      ∧ (i 1).val < win0_9.index ⟨(i 0).val / 128, hq⟩ (1 : Fin 2) * 1024 + 1024
    rw [e91]
    omega

/-- After region 0 its output array `main_v13` holds the specification's block of the entry arrays. -/
theorem final (c : Dev nD) : (dat0 (F := Ideal) V c).arrAt 9 cfg0.N = entryFn V c :=
  (dat0 (F := Ideal) V c).arrAt_eq_of_cover 9 (entryFn V c) (fun t _ => flushed_eq V c t) cover

end Cert.KernelIdeal.Blocks0

end
-- ==== Proof.KBody1.lean ====
/-
  What region 1's kernel body leaves in its output block, read at one entry.

  The body loads a block of 128 rows of the activations and the whole weight arrays, and stores
  one value per entry of the block.  Entry (p, d) of what it stores depends only on row p of
  the loaded block: it is `Spec.blockRow` of that row, the weights read as the body's matrix products
  index them (the two projection matrices [input, hidden], the output matrix [hidden, output], every
  bias and the gain and offset as one row).
-/
import proofs.«150766_j26225070309871_1_alg».proof.Proof.Gen.KernelIdeal.Frame
import proofs.«150766_j26225070309871_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body1

open Cert.KernelIdeal Cert.KernelIdeal.Gen
open Idealize.ShloMosaic Idealize.ShloMosaic.TcCoe Idealize.ShloMosaic.ValueIdx

/-! ## The two matrix products at an entry

A product into the zero array, read at one entry, is the sum over the contracted axis of the operands'
products; the contraction's index set is identified with its one coordinate. -/

/-- The projections' product contracts the input axis: operand indices, axis by axis. -/
theorem dotA_lhs_0 (j : S128x4096.Idx) (k : dot_S128x1024_S1024x4096_S128x4096_1_0_0_1_n_n.contr.Idx) :
    (dot_S128x1024_S1024x4096_S128x4096_1_0_0_1_n_n.lhsIdx j k 0).val = (j 0).val := rfl
theorem dotA_lhs_1 (j : S128x4096.Idx) (k : dot_S128x1024_S1024x4096_S128x4096_1_0_0_1_n_n.contr.Idx) :
    (dot_S128x1024_S1024x4096_S128x4096_1_0_0_1_n_n.lhsIdx j k 1).val = (k ⟨0, by decide⟩).val := rfl
theorem dotA_rhs_0 (j : S128x4096.Idx) (k : dot_S128x1024_S1024x4096_S128x4096_1_0_0_1_n_n.contr.Idx) :
    (dot_S128x1024_S1024x4096_S128x4096_1_0_0_1_n_n.rhsIdx j k 0).val = (k ⟨0, by decide⟩).val := rfl
theorem dotA_rhs_1 (j : S128x4096.Idx) (k : dot_S128x1024_S1024x4096_S128x4096_1_0_0_1_n_n.contr.Idx) :
    (dot_S128x1024_S1024x4096_S128x4096_1_0_0_1_n_n.rhsIdx j k 1).val = (j 1).val := rfl

/-- Entry (p, k) of a [128,1024] × [1024,4096] product is the sum over the 1024 inputs. -/
theorem mmA_apply (a : FVec Ideal S128x1024 .bf16) (b : FVec Ideal S1024x4096 .bf16) (p : Fin 128) (k : Fin 4096) :
    matmul (F := Ideal) dot_S128x1024_S1024x4096_S128x4096_1_0_0_1_n_n none a b (constant (F := Ideal) S128x4096 .f32 0x00000000#32) (ix2 p k)
      = ∑ d' : Fin 1024, a (ix2 p d') * b (ix2 d' k) := by
  refine (Ideal.matmul_constant_zero_apply dot_S128x1024_S1024x4096_S128x4096_1_0_0_1_n_n none a b (ix2 p k)).trans ?_
  rw [← Equiv.sum_comp (contrEquiv1 dot_S128x1024_S1024x4096_S128x4096_1_0_0_1_n_n 1024 rfl rfl).symm]
  refine Finset.sum_congr rfl fun d' _ => ?_
  have hk : (((contrEquiv1 dot_S128x1024_S1024x4096_S128x4096_1_0_0_1_n_n 1024 rfl rfl).symm d') ⟨0, by decide⟩ : ℕ) = d'.val :=
    contrEquiv1_symm_val _ _ _ _ d'
  have hl : dot_S128x1024_S1024x4096_S128x4096_1_0_0_1_n_n.lhsIdx (ix2 p k)
      ((contrEquiv1 dot_S128x1024_S1024x4096_S128x4096_1_0_0_1_n_n 1024 rfl rfl).symm d') = ix2 p d' := by
    funext ax; refine Fin.ext ?_
    match ax with
    | ⟨0, _⟩ => exact dotA_lhs_0 _ _
    | ⟨1, _⟩ => exact (dotA_lhs_1 _ _).trans hk
  have hr : dot_S128x1024_S1024x4096_S128x4096_1_0_0_1_n_n.rhsIdx (ix2 p k)
      ((contrEquiv1 dot_S128x1024_S1024x4096_S128x4096_1_0_0_1_n_n 1024 rfl rfl).symm d') = ix2 d' k := by
    funext ax; refine Fin.ext ?_
    match ax with
    | ⟨0, _⟩ => exact (dotA_rhs_0 _ _).trans hk
    | ⟨1, _⟩ => exact dotA_rhs_1 _ _
  rw [hl, hr]

/-- The output product contracts the hidden axis: operand indices, axis by axis. -/
theorem dotB_lhs_0 (j : S128x1024.Idx) (k : dot_S128x4096_S4096x1024_S128x1024_1_0_0_1_n_n.contr.Idx) :
    (dot_S128x4096_S4096x1024_S128x1024_1_0_0_1_n_n.lhsIdx j k 0).val = (j 0).val := rfl
theorem dotB_lhs_1 (j : S128x1024.Idx) (k : dot_S128x4096_S4096x1024_S128x1024_1_0_0_1_n_n.contr.Idx) :
    (dot_S128x4096_S4096x1024_S128x1024_1_0_0_1_n_n.lhsIdx j k 1).val = (k ⟨0, by decide⟩).val := rfl
theorem dotB_rhs_0 (j : S128x1024.Idx) (k : dot_S128x4096_S4096x1024_S128x1024_1_0_0_1_n_n.contr.Idx) :
    (dot_S128x4096_S4096x1024_S128x1024_1_0_0_1_n_n.rhsIdx j k 0).val = (k ⟨0, by decide⟩).val := rfl
theorem dotB_rhs_1 (j : S128x1024.Idx) (k : dot_S128x4096_S4096x1024_S128x1024_1_0_0_1_n_n.contr.Idx) :
    (dot_S128x4096_S4096x1024_S128x1024_1_0_0_1_n_n.rhsIdx j k 1).val = (j 1).val := rfl

/-- Entry (p, d) of a [128,4096] × [4096,1024] product is the sum over the 4096 hidden units. -/
theorem mmB_apply (a : FVec Ideal S128x4096 .bf16) (b : FVec Ideal S4096x1024 .bf16) (p : Fin 128) (d : Fin 1024) :
    matmul (F := Ideal) dot_S128x4096_S4096x1024_S128x1024_1_0_0_1_n_n none a b (constant (F := Ideal) S128x1024 .f32 0x00000000#32) (ix2 p d)
      = ∑ k : Fin 4096, a (ix2 p k) * b (ix2 k d) := by
  refine (Ideal.matmul_constant_zero_apply dot_S128x4096_S4096x1024_S128x1024_1_0_0_1_n_n none a b (ix2 p d)).trans ?_
  rw [← Equiv.sum_comp (contrEquiv1 dot_S128x4096_S4096x1024_S128x1024_1_0_0_1_n_n 4096 rfl rfl).symm]
  refine Finset.sum_congr rfl fun k _ => ?_
  have hk : (((contrEquiv1 dot_S128x4096_S4096x1024_S128x1024_1_0_0_1_n_n 4096 rfl rfl).symm k) ⟨0, by decide⟩ : ℕ) = k.val :=
    contrEquiv1_symm_val _ _ _ _ k
  have hl : dot_S128x4096_S4096x1024_S128x1024_1_0_0_1_n_n.lhsIdx (ix2 p d)
      ((contrEquiv1 dot_S128x4096_S4096x1024_S128x1024_1_0_0_1_n_n 4096 rfl rfl).symm k) = ix2 p k := by
    funext ax; refine Fin.ext ?_
    match ax with
    | ⟨0, _⟩ => exact dotB_lhs_0 _ _
    | ⟨1, _⟩ => exact (dotB_lhs_1 _ _).trans hk
  have hr : dot_S128x4096_S4096x1024_S128x1024_1_0_0_1_n_n.rhsIdx (ix2 p d)
      ((contrEquiv1 dot_S128x4096_S4096x1024_S128x1024_1_0_0_1_n_n 4096 rfl rfl).symm k) = ix2 k d := by
    funext ax; refine Fin.ext ?_
    match ax with
    | ⟨0, _⟩ => exact (dotB_rhs_0 _ _).trans hk
    | ⟨1, _⟩ => exact dotB_rhs_1 _ _
  rw [hl, hr]

/-! ## The bilinear layer with its residual -/

/-- Entry (p, k) of a projection: the product's sum plus the bias row. -/
theorem proj_apply (x0 : FVec Ideal S128x1024 .f32) (w : FVec Ideal S1024x4096 .bf16) (b : FVec Ideal S1x4096 .f32)
    (p : Fin 128) (k : Fin 4096) :
    addf (F := Ideal)
        (matmul (F := Ideal) dot_S128x1024_S1024x4096_S128x4096_1_0_0_1_n_n none (truncf .bf16 x0 bitsLt_bf16_f32) w
          (constant (F := Ideal) S128x4096 .f32 0x00000000#32))
        (broadcastTo S128x4096 b broadcasts_S1x4096_S128x4096) (ix2 p k)
      = Cert.Spec.proj (fun d' => x0 (ix2 p d')) (fun k d' => w (ix2 d' k)) (fun k => b (ix2 0 k)) k := by
  refine (addf_apply _ _ _).trans ?_
  unfold Cert.Spec.proj
  exact congrArg₂ (· + ·) (mmA_apply _ _ p k) (broadcastTo_1b_ab_apply b _ p k)

/-- Entry (p, d) of the bilinear layer with its residual is `Spec.pre` of row p. -/
theorem pay2_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) (d : Fin 1024) :
    k1_pay2 (F := Ideal) x0 x1 x2 x3 x4 x5 x6 (ix2 p d)
      = Cert.Spec.pre (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d')) d := by
  unfold k1_pay2
  simp only [shapeCast_self]
  refine (addf_apply _ _ _).trans ?_
  unfold Cert.Spec.pre
  refine congrArg (x0 (ix2 p d) + ·) ?_
  refine (addf_apply _ _ _).trans ?_
  refine congrArg₂ (· + ·) ?_ (broadcastTo_1b_ab_apply x6 _ p d)
  refine (mmB_apply _ _ p d).trans ?_
  refine Finset.sum_congr rfl fun k _ => ?_
  refine congrArg (· * x5 (ix2 k d)) ?_
  refine (truncf_apply (ψ := .bf16) _ bitsLt_bf16_f32 (ix2 p k)).trans ?_
  refine (mulf_apply _ _ _).trans ?_
  exact congrArg₂ (· * ·) (proj_apply x0 x1 x2 p k) (proj_apply x0 x3 x4 p k)

/-! ## A column of row statistics: [128] → [128,1] → [128,1024] -/

/-- A [128] vector cast to a [128,1] column reads, at (p, u), the vector at p. -/
theorem col_apply (v : FVec Ideal S128 .f32) (p : Fin 128) (u : Fin 1) :
    shapeCast S128x1 v shapeCasts_S128_S128x1 (ix2 p u) = v (ix1 p) :=
  shapeCast_apply v shapeCasts_S128_S128x1 (ix2 p u) (ix1 p) (by
    have hu : u.val = 0 := by omega
    rw [Shape.rowMajor_val_one, Shape.rowMajor_val_two]
    show p.val = p.val * 1 + u.val
    rw [hu, Nat.mul_one, Nat.add_zero])

/-- A [128,1] column broadcast over 1024 lanes reads, at (p, d), the column at p. -/
theorem bcol_apply (v : FVec Ideal S128x1 .f32) (p : Fin 128) (d : Fin 1024) :
    broadcastTo S128x1024 v broadcasts_S128x1_S128x1024 (ix2 p d) = v (ix2 p (0 : Fin 1)) := by
  refine broadcastTo_apply v broadcasts_S128x1_S128x1024 (ix2 p d) (ix2 p (0 : Fin 1)) fun ax => ?_
  match ax with
  | ⟨0, _⟩ => rfl
  | ⟨1, _⟩ => rfl

/-- The sum along the lanes, read at row p, is the sum over the row's 1024 entries. -/
theorem rowSum_apply (src : FVec Ideal S128x1024 .f32) (p : Fin 128) :
    multiReduction (F := Ideal) .add [1] S128 src 0x00000000#32 reduces_S128x1024_S128 (.inl rfl) rfl (ix1 p)
      = ∑ d : Fin 1024, src (ix2 p d) := by
  refine (Ideal.multiReduction_add_single src 0x00000000#32 reduces_S128x1024_S128 (.inl rfl) rfl (ix1 p)).trans ?_
  show ∑ d : Fin 1024, src (reduces_S128x1024_S128.lift (ix1 p) d) = _
  refine Finset.sum_congr rfl fun d _ => congrArg src ?_
  funext ax; refine Fin.ext ?_
  match ax with
  | ⟨0, _⟩ => rfl
  | ⟨1, _⟩ => rfl

/-- The mean column of an array: at (p, u), the mean of row p. -/
theorem meanCol_apply (src : FVec Ideal S128x1024 .f32) (p : Fin 128) (u : Fin 1) :
    divf (F := Ideal)
        (shapeCast S128x1 (multiReduction (F := Ideal) .add [1] S128 src 0x00000000#32 reduces_S128x1024_S128 (.inl rfl) rfl)
          shapeCasts_S128_S128x1)
        (broadcast S128x1 (Scalar.ofBits (F := Ideal) .f32 0x44800000#32)) (ix2 p u)
      = Cert.Spec.mean (fun d => src (ix2 p d)) := by
  refine (divf_apply _ _ _).trans ?_
  unfold Cert.Spec.mean
  refine congrArg₂ Ideal.div ?_ rfl
  exact (col_apply _ p u).trans (rowSum_apply src p)

/-! ## The mean and the variance columns -/

/-- Entry (p, u) of the mean column is the mean of row p of the bilinear layer's output. -/
theorem pay3_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) (u : Fin 1) :
    k1_pay3 (F := Ideal) x0 x1 x2 x3 x4 x5 x6 (ix2 p u)
      = Cert.Spec.mean (Cert.Spec.pre (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d'))) := by
  unfold k1_pay3
  refine (meanCol_apply _ p u).trans ?_
  exact congrArg Cert.Spec.mean (funext fun d => pay2_apply x0 x1 x2 x3 x4 x5 x6 p d)

/-- Entry (p, u) of the variance column is the mean of the squared deviations of row p. -/
theorem pay4_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (p : Fin 128) (u : Fin 1) :
    k1_pay4 (F := Ideal) x0 x1 x2 x3 x4 x5 x6 (ix2 p u)
      = Cert.Spec.mean (fun d' =>
          (Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d')) d'
            - Cert.Spec.mean (Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d'))))
          * (Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d')) d'
            - Cert.Spec.mean (Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d'))))) := by
  unfold k1_pay4
  refine (meanCol_apply _ p u).trans ?_
  refine congrArg Cert.Spec.mean (funext fun d => ?_)
  refine (mulf_apply _ _ _).trans ?_
  have e : subf (F := Ideal) (k1_pay2 (F := Ideal) x0 x1 x2 x3 x4 x5 x6)
        (broadcastTo S128x1024 (k1_pay3 (F := Ideal) x0 x1 x2 x3 x4 x5 x6) broadcasts_S128x1_S128x1024) (ix2 p d)
      = Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d')) d
        - Cert.Spec.mean (Cert.Spec.pre (fun d' => x0 (ix2 p d')) (fun k d' => x1 (ix2 d' k)) (fun k => x2 (ix2 0 k))
              (fun k d' => x3 (ix2 d' k)) (fun k => x4 (ix2 0 k)) (fun d' k => x5 (ix2 k d'))
              (fun d' => x6 (ix2 0 d'))) := by
    refine (subf_apply _ _ _).trans ?_
    exact congrArg₂ (· - ·) (pay2_apply x0 x1 x2 x3 x4 x5 x6 p d)
      ((bcol_apply _ p d).trans (pay3_apply x0 x1 x2 x3 x4 x5 x6 p 0))
  exact congrArg₂ (· * ·) e e

/-! ## The normalisation, and the block -/

/-- Entry (p, d) of the normalised array, from the layer's output, the mean column and the variance column. -/
theorem pay1_apply (h : FVec Ideal S128x1024 .f32) (mu va : FVec Ideal S128x1 .f32) (g b : Vec Ideal S1x1024 .f32)
    (p : Fin 128) (d : Fin 1024) :
    k1_pay1 (F := Ideal) h mu va g b (ix2 p d)
      = ((h (ix2 p d) - mu (ix2 p 0)) * Ideal.rsqrt (va (ix2 p 0) + Cert.Spec.eps)) * g (ix2 0 d) + b (ix2 0 d) := by
  unfold k1_pay1
  simp only [shapeCast_self]
  refine (addf_apply _ _ _).trans ?_
  refine congrArg₂ (· + ·) ?_ (broadcastTo_1b_ab_apply b _ p d)
  refine (mulf_apply _ _ _).trans ?_
  refine congrArg₂ (· * ·) ?_ (broadcastTo_1b_ab_apply g _ p d)
  refine (mulf_apply _ _ _).trans ?_
  refine congrArg₂ (· * ·) ?_ ?_
  · refine (subf_apply _ _ _).trans ?_
    exact congrArg (h (ix2 p d) - ·) (bcol_apply mu p d)
  · refine (bcol_apply _ p d).trans ?_
    rfl

/-- The block's stores and loads start at the origin. -/
theorem offsets_zero : (![0, 0] : Fin 2 → Nat) = fun _ => 0 := funext fun a => by fin_cases a <;> rfl

/-- Entry (p, d) of region 1's stored block is the block function of row p of the loaded activations. -/
theorem out_apply (x0 : Vec Ideal S128x1024 .f32) (x1 : Vec Ideal S1024x4096 .bf16) (x2 : Vec Ideal S1x4096 .f32)
    (x3 : Vec Ideal S1024x4096 .bf16) (x4 : Vec Ideal S1x4096 .f32) (x5 : Vec Ideal S4096x1024 .bf16)
    (x6 : Vec Ideal S1x1024 .f32) (x7 : Vec Ideal S1x1024 .f32) (x8 : Vec Ideal S1x1024 .f32)
    (p : Fin 128) (d : Fin 1024) :
    out1_9 (F := Ideal) x0 x1 x2 x3 x4 x5 x6 x7 x8 (ix2 p d)
      = Cert.Spec.blockRow (fun d' => x0 (ix2 p d')) (fun k d' => x1 (ix2 d' k)) (fun k => x2 (ix2 0 k))
          (fun k d' => x3 (ix2 d' k)) (fun k => x4 (ix2 0 k)) (fun d' k => x5 (ix2 k d'))
          (fun d' => x6 (ix2 0 d')) (fun d' => x7 (ix2 0 d')) (fun d' => x8 (ix2 0 d')) d := by
  unfold out1_9
  rw [View.canon_unit_zero offsets_zero]
  simp only [View.ld_unit_zero (S := S128x1024) offsets_zero, View.ld_unit_zero (S := S1024x4096) offsets_zero,
    View.ld_unit_zero (S := S1x4096) offsets_zero, View.ld_unit_zero (S := S4096x1024) offsets_zero,
    View.ld_unit_zero (S := S1x1024) offsets_zero]
  refine (pay1_apply _ _ _ x7 x8 p d).trans ?_
  rw [pay2_apply, pay3_apply, pay4_apply]
  rfl

end Cert.KernelIdeal.Body1

end
-- ==== Proof.KBlocks1.lean ====
/-
  Region 1's output array after the region, as one function of the arrays the region finds.

  The region has 128 grid points; point t stages rows 128·t … 128·t + 127 of the activations (all 1024
  columns) and the whole of every weight array (their index maps are constant), and writes back rows
  128·t … 128·t + 127 of the output.  Since an entry of the stored block depends only on its own row of the
  loaded block (`Body1.out_apply`), what point t writes back is block t of `Spec.blockArr` of the entry
  arrays; the 128 blocks tile the 16384 rows, so the array ends holding that function everywhere.
-/
import proofs.«150766_j26225070309871_1_alg».proof.Proof.Gen.KernelIdeal.Frame
import proofs.«150766_j26225070309871_1_alg».proof.Proof.Spec
import proofs.«150766_j26225070309871_1_alg».proof.Proof.KBody1
import Idealize.ShloMosaic.Lib.ValueIdx
import Idealize.ShloMosaic.Lib.Pipeline.Value

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The specification's block of the arrays region 1 finds: the activations in `main_v13`, the weights as the host
    stretch before the region laid them out (projection matrices [input, hidden], output matrix [hidden, output],
    biases, gain and offset as single rows). -/
def entryFn (c : Dev nD) : Cert.Spec.Act :=
  Cert.Spec.blockArr (V c main_v13 : S16384x1024.Idx → EReal)
    (fun k d => (V c main_v16 : S1024x4096.Idx → EReal) (ix2 d k)) (fun k => (V c main_v22 : S1x4096.Idx → EReal) (ix2 0 k))
    (fun k d => (V c main_v19 : S1024x4096.Idx → EReal) (ix2 d k)) (fun k => (V c main_v23 : S1x4096.Idx → EReal) (ix2 0 k))
    (fun d k => (V c main_v21 : S4096x1024.Idx → EReal) (ix2 k d)) (fun d => (V c main_v24 : S1x1024.Idx → EReal) (ix2 0 d))
    (fun d => (V c main_v25 : S1x1024.Idx → EReal) (ix2 0 d)) (fun d => (V c main_v26 : S1x1024.Idx → EReal) (ix2 0 d))

/-- The printed index maps, decided over the grid: the activations' window and the output's step one block of
    128 rows per point and keep column block 0; every weight window stays at block (0, 0). -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The activations' block at point `t` is rows `128·t … 128·t + 127` of the array. -/
theorem iblk_0_apply (c : Dev nD) (t : Fin cfg1.N) (p : Fin 128) (d : Fin 1024) (n : Fin 16384)
    (hn : n.val = 128 * t.val + p.val) :
    (iblk1 V c 0 t : Vec Ideal S128x1024 .f32) (ix2 p d) = (V c main_v13 : S16384x1024.Idx → EReal) (ix2 n d) := by
  obtain ⟨e0, e1, -⟩ := idx_facts t
  unfold iblk1
  rw [View.read_apply]
  show (V c main_v13 : S16384x1024.Idx → EReal) _ = _
  congr 1
  funext a
  apply Fin.ext
  match a with
  | ⟨0, _⟩ => show win1_0.index t (0 : Fin 2) * 128 + 1 * p.val = n.val; rw [e0, hn]; omega
  | ⟨1, _⟩ => show win1_0.index t (1 : Fin 2) * 1024 + 1 * d.val = d.val; rw [e1]; omega

/-- Window 1's block at any point is the whole first projection matrix array. -/
theorem iblk_1_apply (c : Dev nD) (t : Fin cfg1.N) (a : Fin 1024) (b : Fin 4096) :
    (iblk1 V c 1 t : Vec Ideal S1024x4096 .bf16) (ix2 a b) = (V c main_v16 : S1024x4096.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v16 : S1024x4096.Idx → EReal) _ = _
  congr 1
  funext x
  apply Fin.ext
  match x with
  | ⟨0, _⟩ => show win1_1.index t (0 : Fin 2) * 1024 + 1 * a.val = a.val; rw [e10]; omega
  | ⟨1, _⟩ => show win1_1.index t (1 : Fin 2) * 4096 + 1 * b.val = b.val; rw [e11]; omega

/-- Window 2's block at any point is the whole first projection bias array. -/
theorem iblk_2_apply (c : Dev nD) (t : Fin cfg1.N) (a : Fin 1) (b : Fin 4096) :
    (iblk1 V c 2 t : Vec Ideal S1x4096 .f32) (ix2 a b) = (V c main_v22 : S1x4096.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v22 : S1x4096.Idx → EReal) _ = _
  congr 1
  funext x
  apply Fin.ext
  match x with
  | ⟨0, _⟩ => show win1_2.index t (0 : Fin 2) * 1 + 1 * a.val = a.val; rw [e20]; omega
  | ⟨1, _⟩ => show win1_2.index t (1 : Fin 2) * 4096 + 1 * b.val = b.val; rw [e21]; omega

/-- Window 3's block at any point is the whole second projection matrix array. -/
theorem iblk_3_apply (c : Dev nD) (t : Fin cfg1.N) (a : Fin 1024) (b : Fin 4096) :
    (iblk1 V c 3 t : Vec Ideal S1024x4096 .bf16) (ix2 a b) = (V c main_v19 : S1024x4096.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v19 : S1024x4096.Idx → EReal) _ = _
  congr 1
  funext x
  apply Fin.ext
  match x with
  | ⟨0, _⟩ => show win1_3.index t (0 : Fin 2) * 1024 + 1 * a.val = a.val; rw [e30]; omega
  | ⟨1, _⟩ => show win1_3.index t (1 : Fin 2) * 4096 + 1 * b.val = b.val; rw [e31]; omega

/-- Window 4's block at any point is the whole second projection bias array. -/
theorem iblk_4_apply (c : Dev nD) (t : Fin cfg1.N) (a : Fin 1) (b : Fin 4096) :
    (iblk1 V c 4 t : Vec Ideal S1x4096 .f32) (ix2 a b) = (V c main_v23 : S1x4096.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v23 : S1x4096.Idx → EReal) _ = _
  congr 1
  funext x
  apply Fin.ext
  match x with
  | ⟨0, _⟩ => show win1_4.index t (0 : Fin 2) * 1 + 1 * a.val = a.val; rw [e40]; omega
  | ⟨1, _⟩ => show win1_4.index t (1 : Fin 2) * 4096 + 1 * b.val = b.val; rw [e41]; omega

/-- Window 5's block at any point is the whole output matrix array. -/
theorem iblk_5_apply (c : Dev nD) (t : Fin cfg1.N) (a : Fin 4096) (b : Fin 1024) :
    (iblk1 V c 5 t : Vec Ideal S4096x1024 .bf16) (ix2 a b) = (V c main_v21 : S4096x1024.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v21 : S4096x1024.Idx → EReal) _ = _
  congr 1
  funext x
  apply Fin.ext
  match x with
  | ⟨0, _⟩ => show win1_5.index t (0 : Fin 2) * 4096 + 1 * a.val = a.val; rw [e50]; omega
  | ⟨1, _⟩ => show win1_5.index t (1 : Fin 2) * 1024 + 1 * b.val = b.val; rw [e51]; omega

/-- Window 6's block at any point is the whole output bias array. -/
theorem iblk_6_apply (c : Dev nD) (t : Fin cfg1.N) (a : Fin 1) (b : Fin 1024) :
    (iblk1 V c 6 t : Vec Ideal S1x1024 .f32) (ix2 a b) = (V c main_v24 : S1x1024.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v24 : S1x1024.Idx → EReal) _ = _
  congr 1
  funext x
  apply Fin.ext
  match x with
  | ⟨0, _⟩ => show win1_6.index t (0 : Fin 2) * 1 + 1 * a.val = a.val; rw [e60]; omega
  | ⟨1, _⟩ => show win1_6.index t (1 : Fin 2) * 1024 + 1 * b.val = b.val; rw [e61]; omega

/-- Window 7's block at any point is the whole gain array. -/
theorem iblk_7_apply (c : Dev nD) (t : Fin cfg1.N) (a : Fin 1) (b : Fin 1024) :
    (iblk1 V c 7 t : Vec Ideal S1x1024 .f32) (ix2 a b) = (V c main_v25 : S1x1024.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v25 : S1x1024.Idx → EReal) _ = _
  congr 1
  funext x
  apply Fin.ext
  match x with
  | ⟨0, _⟩ => show win1_7.index t (0 : Fin 2) * 1 + 1 * a.val = a.val; rw [e70]; omega
  | ⟨1, _⟩ => show win1_7.index t (1 : Fin 2) * 1024 + 1 * b.val = b.val; rw [e71]; omega

/-- Window 8's block at any point is the whole offset array. -/
theorem iblk_8_apply (c : Dev nD) (t : Fin cfg1.N) (a : Fin 1) (b : Fin 1024) :
    (iblk1 V c 8 t : Vec Ideal S1x1024 .f32) (ix2 a b) = (V c main_v26 : S1x1024.Idx → EReal) (ix2 a b) := by
  obtain ⟨e0, e1, e90, e91, e10, e11, e20, e21, e30, e31, e40, e41, e50, e51, e60, e61, e70, e71, e80, e81⟩ := idx_facts t
  unfold iblk1
  rw [View.read_apply]
  show (V c main_v26 : S1x1024.Idx → EReal) _ = _
  congr 1
  funext x
  apply Fin.ext
  match x with
  | ⟨0, _⟩ => show win1_8.index t (0 : Fin 2) * 1 + 1 * a.val = a.val; rw [e80]; omega
  | ⟨1, _⟩ => show win1_8.index t (1 : Fin 2) * 1024 + 1 * b.val = b.val; rw [e81]; omega

/-- Entry (p, d) of what point `t` leaves in the output's block is entry (128·t + p, d) of the specification's
    block of the entry arrays: the body's entry is the block function of row p of the loaded block, which is row
    128·t + p of the activations, and every loaded weight block is its whole array. -/
theorem out_blk (c : Dev nD) (t : Fin cfg1.N) (p : Fin 128) (d : Fin 1024) (n : Fin 16384)
    (hn : n.val = 128 * t.val + p.val) :
    out1_9 (F := Ideal) (iblk1 V c 0 t) (iblk1 V c 1 t) (iblk1 V c 2 t) (iblk1 V c 3 t) (iblk1 V c 4 t)
        (iblk1 V c 5 t) (iblk1 V c 6 t) (iblk1 V c 7 t) (iblk1 V c 8 t) (ix2 p d)
      = entryFn V c (ix2 n d) := by
  have h0 : (fun d' => (iblk1 V c 0 t : Vec Ideal S128x1024 .f32) (ix2 p d'))
      = fun d' => (V c main_v13 : S16384x1024.Idx → EReal) (ix2 n d') :=
    funext fun d' => iblk_0_apply V c t p d' n hn
  have h1 : (fun k d' => (iblk1 V c 1 t : Vec Ideal S1024x4096 .bf16) (ix2 d' k))
      = fun k d' => (V c main_v16 : S1024x4096.Idx → EReal) (ix2 d' k) :=
    funext fun k => funext fun d' => iblk_1_apply V c t d' k
  have h2 : (fun k => (iblk1 V c 2 t : Vec Ideal S1x4096 .f32) (ix2 0 k))
      = fun k => (V c main_v22 : S1x4096.Idx → EReal) (ix2 0 k) :=
    funext fun k => iblk_2_apply V c t 0 k
  have h3 : (fun k d' => (iblk1 V c 3 t : Vec Ideal S1024x4096 .bf16) (ix2 d' k))
      = fun k d' => (V c main_v19 : S1024x4096.Idx → EReal) (ix2 d' k) :=
    funext fun k => funext fun d' => iblk_3_apply V c t d' k
  have h4 : (fun k => (iblk1 V c 4 t : Vec Ideal S1x4096 .f32) (ix2 0 k))
      = fun k => (V c main_v23 : S1x4096.Idx → EReal) (ix2 0 k) :=
    funext fun k => iblk_4_apply V c t 0 k
  have h5 : (fun d' k => (iblk1 V c 5 t : Vec Ideal S4096x1024 .bf16) (ix2 k d'))
      = fun d' k => (V c main_v21 : S4096x1024.Idx → EReal) (ix2 k d') :=
    funext fun d' => funext fun k => iblk_5_apply V c t k d'
  have h6 : (fun d' => (iblk1 V c 6 t : Vec Ideal S1x1024 .f32) (ix2 0 d'))
      = fun d' => (V c main_v24 : S1x1024.Idx → EReal) (ix2 0 d') :=
    funext fun d' => iblk_6_apply V c t 0 d'
  have h7 : (fun d' => (iblk1 V c 7 t : Vec Ideal S1x1024 .f32) (ix2 0 d'))
      = fun d' => (V c main_v25 : S1x1024.Idx → EReal) (ix2 0 d') :=
    funext fun d' => iblk_7_apply V c t 0 d'
  have h8 : (fun d' => (iblk1 V c 8 t : Vec Ideal S1x1024 .f32) (ix2 0 d'))
      = fun d' => (V c main_v26 : S1x1024.Idx → EReal) (ix2 0 d') :=
    funext fun d' => iblk_8_apply V c t 0 d'
  refine (Body1.out_apply _ _ _ _ _ _ _ _ _ p d).trans ?_
  unfold entryFn
  rw [Cert.Spec.blockArr_apply, h0, h1, h2, h3, h4, h5, h6, h7, h8]

/-- What point `t` writes back is block `t` of the specification's block of the entry arrays. -/
theorem flushed_eq (c : Dev nD) (t : Fin cfg1.N) :
    (dat1 (F := Ideal) V c).flushed 9 t = ((cfg1.win 9).blk t).view.read (Elt Ideal) (entryFn V c) := by
  show (cfg1.win 9).cut (grid1.coords t) ((dat1 (F := Ideal) V c).after 9 t) = _
  rw [after1_9]
  obtain ⟨e0, e1, e90, e91, -⟩ := idx_facts t
  have hN : cfg1.N = 128 := N_1
  have ht : t.val < cfg1.N := t.isLt
  have key : ∀ (p : Fin 128) (d : Fin 1024),
      out1_9 (F := Ideal) (iblk1 V c 0 t) (iblk1 V c 1 t) (iblk1 V c 2 t) (iblk1 V c 3 t) (iblk1 V c 4 t)
          (iblk1 V c 5 t) (iblk1 V c 6 t) (iblk1 V c 7 t) (iblk1 V c 8 t) (ix2 p d)
        = entryFn V c (((cfg1.win 9).blk t).view.emb (ix2 p d)) := by
    intro p d
    have hp : p.val < 128 := p.isLt
    refine (out_blk V c t p d ⟨128 * t.val + p.val, by omega⟩ rfl).trans ?_
    congr 1
    funext a
    apply Fin.ext
    match a with
    | ⟨0, _⟩ => show 128 * t.val + p.val = win1_9.index t (0 : Fin 2) * 128 + 1 * p.val; rw [e90]; omega
    | ⟨1, _⟩ => show d.val = win1_9.index t (1 : Fin 2) * 1024 + 1 * d.val; rw [e91]; omega
  have key' : ∀ j : S128x1024.Idx,
      out1_9 (F := Ideal) (iblk1 V c 0 t) (iblk1 V c 1 t) (iblk1 V c 2 t) (iblk1 V c 3 t) (iblk1 V c 4 t)
          (iblk1 V c 5 t) (iblk1 V c 6 t) (iblk1 V c 7 t) (iblk1 V c 8 t) j
        = entryFn V c (((cfg1.win 9).blk t).view.emb j) := by
    intro j
    rw [eq_ix2 j]
    exact key (j 0) (j 1)
  funext j
  exact key' j

/-- An index of the output array is in point `t`'s block iff each coordinate is in the block's range on its axis. -/
theorem mem_blk (t : Fin cfg1.N) (i : S16384x1024.Idx) :
    i ∈ ((cfg1.win 9).blk t).view.set
      ↔ ∀ a : Fin 2, win1_9.index t a * S128x1024.size a ≤ (i a).val
          ∧ (i a).val < win1_9.index t a * S128x1024.size a + S128x1024.size a := by
  show i ∈ ((View.whole main_v27).slice (win1_9.rect t)).set ↔ _
  rw [View.set_slice_whole, Rect.mem_set_unit]
  exact Iff.rfl

/-- The 128 blocks tile the rows: row `r` is in the block of point `⌊r / 128⌋`, which writes back. -/
theorem cover (i : S16384x1024.Idx) :
    ∃ t : Fin cfg1.N, (cfg1.win 9).flush t = true ∧ i ∈ ((cfg1.win 9).blk t).view.set := by
  have hN : cfg1.N = 128 := N_1
  have hi0 : (i 0).val < 16384 := (i 0).isLt
  have hi1 : (i 1).val < 1024 := (i 1).isLt
  have hq : (i 0).val / 128 < cfg1.N := by omega
  obtain ⟨-, -, e90, e91, -⟩ := idx_facts ⟨(i 0).val / 128, hq⟩
  refine ⟨⟨(i 0).val / 128, hq⟩, flush1_9 _, ?_⟩
  rw [mem_blk]
  intro a
  match a with
  | ⟨0, _⟩ =>
    show win1_9.index ⟨(i 0).val / 128, hq⟩ (0 : Fin 2) * 128 ≤ (i 0).val
      ∧ (i 0).val < win1_9.index ⟨(i 0).val / 128, hq⟩ (0 : Fin 2) * 128 + 128
    rw [e90]
    show (i 0).val / 128 * 128 ≤ (i 0).val ∧ (i 0).val < (i 0).val / 128 * 128 + 128
    omega
  | ⟨1, _⟩ =>
    show win1_9.index ⟨(i 0).val / 128, hq⟩ (1 : Fin 2) * 1024 ≤ (i 1).val
      ∧ (i 1).val < win1_9.index ⟨(i 0).val / 128, hq⟩ (1 : Fin 2) * 1024 + 1024
    rw [e91]
    omega

/-- After region 1 its output array `main_v27` holds the specification's block of the entry arrays. -/
theorem final (c : Dev nD) : (dat1 (F := Ideal) V c).arrAt 9 cfg1.N = entryFn V c :=
  (dat1 (F := Ideal) V c).arrAt_eq_of_cover 9 (entryFn V c) (fun t _ => flushed_eq V c t) cover

end Cert.KernelIdeal.Blocks1

end
-- ==== Proof.KHost0.lean ====
/-
  What region 0 finds in its arrays, in terms of the launch memory.

  The host stretch before the region lays the weights out for the kernel: each projection weight
  [basis, unit, input] is flattened to [hidden, input] and transposed to [input, hidden]; the output weight
  [output, hidden] is transposed to [hidden, output]; each is then narrowed to bf16, which is the identity on
  the extended reals; the biases [basis, unit] are flattened to one row of 4096 and the vectors of 1024 become
  one row each.  Read at an entry, each laid-out array is the argument at the entry the specification's
  accessors (`Spec.w3`, `Spec.b2`, `Spec.m2`, `Spec.v1`) name.  No operation before the region writes an argument.
-/
import proofs.«150766_j26225070309871_1_alg».proof.Proof.Gen.KernelIdeal.Frame
import proofs.«150766_j26225070309871_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The layouts read at an entry -/

/-- A weight [basis, unit, input] flattened to [hidden, input], transposed to [input, hidden] and narrowed reads, at
    `(d, k)`, the weight at basis `k / 1024`, unit `k % 1024`, input `d`. -/
private theorem laidW_apply (w : S4x1024x1024.Idx → EReal) (k : Fin 4096) (d : Fin 1024) :
    (truncf (F := Ideal) .bf16 (transpose S1024x4096 [1, 0]
        (shapeCast S4096x1024 w shapeCasts_S4x1024x1024_S4096x1024)
        transposes_S4096x1024_S1024x4096_1_0) bitsLt_bf16_f32 : S1024x4096.Idx → EReal) (ix2 d k)
      = Cert.Spec.w3 w k d := by
  show transpose S1024x4096 [1, 0] (shapeCast S4096x1024 w shapeCasts_S4x1024x1024_S4096x1024)
    transposes_S4096x1024_S1024x4096_1_0 (ix2 d k) = _
  refine (transpose_ix2_apply _ _ d k).trans ?_
  refine (shapeCast_apply _ _ (ix2 k d) (ix3 (Cert.Spec.hi k) (Cert.Spec.lo k) d) ?_).trans rfl
  rw [Shape.rowMajor_val_three, Shape.rowMajor_val_two]
  show (k.val / 1024 * 1024 + k.val % 1024) * 1024 + d.val = k.val * 1024 + d.val
  omega

/-- A weight [output, hidden] transposed to [hidden, output] and narrowed reads, at `(k, d)`, the weight at `(d, k)`. -/
private theorem laidE_apply (w : S1024x4096.Idx → EReal) (d : Fin 1024) (k : Fin 4096) :
    (truncf (F := Ideal) .bf16 (transpose S4096x1024 [1, 0] w transposes_S1024x4096_S4096x1024_1_0)
        bitsLt_bf16_f32 : S4096x1024.Idx → EReal) (ix2 k d)
      = Cert.Spec.m2 w d k := by
  show transpose S4096x1024 [1, 0] w transposes_S1024x4096_S4096x1024_1_0 (ix2 k d) = _
  exact transpose_ix2_apply _ _ k d

/-- A bias [basis, unit] flattened to one row of 4096 reads, at `(0, k)`, the bias at basis `k / 1024`, unit `k % 1024`. -/
private theorem laidB_apply (b : S4x1024.Idx → EReal) (k : Fin 4096) :
    (shapeCast S1x4096 b shapeCasts_S4x1024_S1x4096 : S1x4096.Idx → EReal) (ix2 0 k) = Cert.Spec.b2 b k := by
  refine (shapeCast_apply _ _ (ix2 0 k) (ix2 (Cert.Spec.hi k) (Cert.Spec.lo k)) ?_).trans rfl
  rw [Shape.rowMajor_val_two, Shape.rowMajor_val_two]
  show k.val / 1024 * 1024 + k.val % 1024 = 0 * 4096 + k.val
  omega

/-- A vector of 1024 made one row reads, at `(0, d)`, the vector at `d`. -/
private theorem laidV_apply (v : S1024.Idx → EReal) (d : Fin 1024) :
    (shapeCast S1x1024 v shapeCasts_S1024_S1x1024 : S1x1024.Idx → EReal) (ix2 0 d) = Cert.Spec.v1 v d :=
  shapeCast_a_1a_apply _ _ 0 d

/-! ## What the stretch before region 0 leaves -/

/-- The activations region 0 finds are the first argument as launched. -/
theorem x_eq (c : Dev nD) : V1 m ρ c main_arg0 = m ((c.tc : Thread nD τ).loc main_arg0) := by
  show StableHlo.after hostOps0 (W0 m ρ c) (Proc.devRef .tc main_arg0) = _
  refine (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

/-- The first projection's weights as the region finds them. -/
theorem wr_apply (c : Dev nD) (k : Fin 4096) (d : Fin 1024) :
    (V1 m ρ c main_v2 : S1024x4096.Idx → EReal) (ix2 d k) = Cert.Spec.w3 (m ((c.tc : Thread nD τ).loc main_arg1)) k d := by
  have e : @Eq (S1024x4096.Idx → EReal) (V1 m ρ c main_v2)
      (truncf (F := Ideal) .bf16 (transpose S1024x4096 [1, 0]
          (shapeCast S4096x1024 (m ((c.tc : Thread nD τ).loc main_arg1)) shapeCasts_S4x1024x1024_S4096x1024)
          transposes_S4096x1024_S1024x4096_1_0) bitsLt_bf16_f32) := by
    show StableHlo.after hostOps0 _ (Proc.devRef .tc main_v2) = _
    after_results
    rfl
  exact (congrFun e (ix2 d k)).trans (laidW_apply _ k d)
/-- The first projection's bias. -/
theorem br_apply (c : Dev nD) (k : Fin 4096) :
    (V1 m ρ c main_v8 : S1x4096.Idx → EReal) (ix2 0 k) = Cert.Spec.b2 (m ((c.tc : Thread nD τ).loc main_arg2)) k := by
  have e : @Eq (S1x4096.Idx → EReal) (V1 m ρ c main_v8)
      (shapeCast S1x4096 (m ((c.tc : Thread nD τ).loc main_arg2)) shapeCasts_S4x1024_S1x4096) := by
    show StableHlo.after hostOps0 _ (Proc.devRef .tc main_v8) = _
    after_results
    rfl
  exact (congrFun e (ix2 0 k)).trans (laidB_apply _ k)
/-- The second projection's weights. -/
theorem wl_apply (c : Dev nD) (k : Fin 4096) (d : Fin 1024) :
    (V1 m ρ c main_v5 : S1024x4096.Idx → EReal) (ix2 d k) = Cert.Spec.w3 (m ((c.tc : Thread nD τ).loc main_arg3)) k d := by
  have e : @Eq (S1024x4096.Idx → EReal) (V1 m ρ c main_v5)
      (truncf (F := Ideal) .bf16 (transpose S1024x4096 [1, 0]
          (shapeCast S4096x1024 (m ((c.tc : Thread nD τ).loc main_arg3)) shapeCasts_S4x1024x1024_S4096x1024)
          transposes_S4096x1024_S1024x4096_1_0) bitsLt_bf16_f32) := by
    show StableHlo.after hostOps0 _ (Proc.devRef .tc main_v5) = _
    after_results
    rfl
  exact (congrFun e (ix2 d k)).trans (laidW_apply _ k d)
/-- The second projection's bias. -/
theorem bl_apply (c : Dev nD) (k : Fin 4096) :
    (V1 m ρ c main_v9 : S1x4096.Idx → EReal) (ix2 0 k) = Cert.Spec.b2 (m ((c.tc : Thread nD τ).loc main_arg4)) k := by
  have e : @Eq (S1x4096.Idx → EReal) (V1 m ρ c main_v9)
      (shapeCast S1x4096 (m ((c.tc : Thread nD τ).loc main_arg4)) shapeCasts_S4x1024_S1x4096) := by
    show StableHlo.after hostOps0 _ (Proc.devRef .tc main_v9) = _
    after_results
    rfl
  exact (congrFun e (ix2 0 k)).trans (laidB_apply _ k)
/-- The output weights. -/
theorem we_apply (c : Dev nD) (d : Fin 1024) (k : Fin 4096) :
    (V1 m ρ c main_v7 : S4096x1024.Idx → EReal) (ix2 k d) = Cert.Spec.m2 (m ((c.tc : Thread nD τ).loc main_arg5)) d k := by
  have e : @Eq (S4096x1024.Idx → EReal) (V1 m ρ c main_v7)
      (truncf (F := Ideal) .bf16 (transpose S4096x1024 [1, 0] (m ((c.tc : Thread nD τ).loc main_arg5))
          transposes_S1024x4096_S4096x1024_1_0) bitsLt_bf16_f32) := by
    show StableHlo.after hostOps0 _ (Proc.devRef .tc main_v7) = _
    after_results
  exact (congrFun e (ix2 k d)).trans (laidE_apply _ d k)
/-- The output bias. -/
theorem be_apply (c : Dev nD) (d : Fin 1024) :
    (V1 m ρ c main_v10 : S1x1024.Idx → EReal) (ix2 0 d) = Cert.Spec.v1 (m ((c.tc : Thread nD τ).loc main_arg6)) d := by
  have e : @Eq (S1x1024.Idx → EReal) (V1 m ρ c main_v10)
      (shapeCast S1x1024 (m ((c.tc : Thread nD τ).loc main_arg6)) shapeCasts_S1024_S1x1024) := by
    show StableHlo.after hostOps0 _ (Proc.devRef .tc main_v10) = _
    after_results
    rfl
  exact (congrFun e (ix2 0 d)).trans (laidV_apply _ d)
/-- The normalisation's gain. -/
theorem g_apply (c : Dev nD) (d : Fin 1024) :
    (V1 m ρ c main_v11 : S1x1024.Idx → EReal) (ix2 0 d) = Cert.Spec.v1 (m ((c.tc : Thread nD τ).loc main_arg7)) d := by
  have e : @Eq (S1x1024.Idx → EReal) (V1 m ρ c main_v11)
      (shapeCast S1x1024 (m ((c.tc : Thread nD τ).loc main_arg7)) shapeCasts_S1024_S1x1024) := by
    show StableHlo.after hostOps0 _ (Proc.devRef .tc main_v11) = _
    after_results
    rfl
  exact (congrFun e (ix2 0 d)).trans (laidV_apply _ d)
/-- The normalisation's offset. -/
theorem b_apply (c : Dev nD) (d : Fin 1024) :
    (V1 m ρ c main_v12 : S1x1024.Idx → EReal) (ix2 0 d) = Cert.Spec.v1 (m ((c.tc : Thread nD τ).loc main_arg8)) d := by
  have e : @Eq (S1x1024.Idx → EReal) (V1 m ρ c main_v12)
      (shapeCast S1x1024 (m ((c.tc : Thread nD τ).loc main_arg8)) shapeCasts_S1024_S1x1024) := by
    show StableHlo.after hostOps0 _ (Proc.devRef .tc main_v12) = _
    after_results
    rfl
  exact (congrFun e (ix2 0 d)).trans (laidV_apply _ d)

end Cert.KernelIdeal.Host0

end
-- ==== Proof.KHost1.lean ====
/-
  What region 1 finds in its arrays, in terms of the launch memory.

  The host stretch before the region lays the weights out for the kernel: each projection weight
  [basis, unit, input] is flattened to [hidden, input] and transposed to [input, hidden]; the output weight
  [output, hidden] is transposed to [hidden, output]; each is then narrowed to bf16, which is the identity on
  the extended reals; the biases [basis, unit] are flattened to one row of 4096 and the vectors of 1024 become
  one row each.  Read at an entry, each laid-out array is the argument at the entry the specification's
  accessors (`Spec.w3`, `Spec.b2`, `Spec.m2`, `Spec.v1`) name.  No operation before the region writes an argument.
-/
import proofs.«150766_j26225070309871_1_alg».proof.Proof.Gen.KernelIdeal.Frame
import proofs.«150766_j26225070309871_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The layouts read at an entry -/

/-- A weight [basis, unit, input] flattened to [hidden, input], transposed to [input, hidden] and narrowed reads, at
    `(d, k)`, the weight at basis `k / 1024`, unit `k % 1024`, input `d`. -/
private theorem laidW_apply (w : S4x1024x1024.Idx → EReal) (k : Fin 4096) (d : Fin 1024) :
    (truncf (F := Ideal) .bf16 (transpose S1024x4096 [1, 0]
        (shapeCast S4096x1024 w shapeCasts_S4x1024x1024_S4096x1024)
        transposes_S4096x1024_S1024x4096_1_0) bitsLt_bf16_f32 : S1024x4096.Idx → EReal) (ix2 d k)
      = Cert.Spec.w3 w k d := by
  show transpose S1024x4096 [1, 0] (shapeCast S4096x1024 w shapeCasts_S4x1024x1024_S4096x1024)
    transposes_S4096x1024_S1024x4096_1_0 (ix2 d k) = _
  refine (transpose_ix2_apply _ _ d k).trans ?_
  refine (shapeCast_apply _ _ (ix2 k d) (ix3 (Cert.Spec.hi k) (Cert.Spec.lo k) d) ?_).trans rfl
  rw [Shape.rowMajor_val_three, Shape.rowMajor_val_two]
  show (k.val / 1024 * 1024 + k.val % 1024) * 1024 + d.val = k.val * 1024 + d.val
  omega

/-- A weight [output, hidden] transposed to [hidden, output] and narrowed reads, at `(k, d)`, the weight at `(d, k)`. -/
private theorem laidE_apply (w : S1024x4096.Idx → EReal) (d : Fin 1024) (k : Fin 4096) :
    (truncf (F := Ideal) .bf16 (transpose S4096x1024 [1, 0] w transposes_S1024x4096_S4096x1024_1_0)
        bitsLt_bf16_f32 : S4096x1024.Idx → EReal) (ix2 k d)
      = Cert.Spec.m2 w d k := by
  show transpose S4096x1024 [1, 0] w transposes_S1024x4096_S4096x1024_1_0 (ix2 k d) = _
  exact transpose_ix2_apply _ _ k d

/-- A bias [basis, unit] flattened to one row of 4096 reads, at `(0, k)`, the bias at basis `k / 1024`, unit `k % 1024`. -/
private theorem laidB_apply (b : S4x1024.Idx → EReal) (k : Fin 4096) :
    (shapeCast S1x4096 b shapeCasts_S4x1024_S1x4096 : S1x4096.Idx → EReal) (ix2 0 k) = Cert.Spec.b2 b k := by
  refine (shapeCast_apply _ _ (ix2 0 k) (ix2 (Cert.Spec.hi k) (Cert.Spec.lo k)) ?_).trans rfl
  rw [Shape.rowMajor_val_two, Shape.rowMajor_val_two]
  show k.val / 1024 * 1024 + k.val % 1024 = 0 * 4096 + k.val
  omega

/-- A vector of 1024 made one row reads, at `(0, d)`, the vector at `d`. -/
private theorem laidV_apply (v : S1024.Idx → EReal) (d : Fin 1024) :
    (shapeCast S1x1024 v shapeCasts_S1024_S1x1024 : S1x1024.Idx → EReal) (ix2 0 d) = Cert.Spec.v1 v d :=
  shapeCast_a_1a_apply _ _ 0 d

/-! ## The arguments at region 0's exit

Neither the first stretch nor region 0 writes an argument of the second block, so each is still what was launched. -/

/-- Argument 9 at region 0's exit is the argument as launched. -/
private theorem W2_arg9 (c : Dev nD) :
    W2 m ρ c (Proc.devRef .tc main_arg9) = m ((c.tc : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg9) := rfl

/-- Argument 10 at region 0's exit is the argument as launched. -/
private theorem W2_arg10 (c : Dev nD) :
    W2 m ρ c (Proc.devRef .tc main_arg10) = m ((c.tc : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg10) := rfl

/-- Argument 11 at region 0's exit is the argument as launched. -/
private theorem W2_arg11 (c : Dev nD) :
    W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg11) := rfl

/-- Argument 12 at region 0's exit is the argument as launched. -/
private theorem W2_arg12 (c : Dev nD) :
    W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg12) := rfl

/-- Argument 13 at region 0's exit is the argument as launched. -/
private theorem W2_arg13 (c : Dev nD) :
    W2 m ρ c (Proc.devRef .tc main_arg13) = m ((c.tc : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg13) := rfl

/-- Argument 14 at region 0's exit is the argument as launched. -/
private theorem W2_arg14 (c : Dev nD) :
    W2 m ρ c (Proc.devRef .tc main_arg14) = m ((c.tc : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg14) := rfl

/-- Argument 15 at region 0's exit is the argument as launched. -/
private theorem W2_arg15 (c : Dev nD) :
    W2 m ρ c (Proc.devRef .tc main_arg15) = m ((c.tc : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg15) := rfl

/-- Argument 16 at region 0's exit is the argument as launched. -/
private theorem W2_arg16 (c : Dev nD) :
    W2 m ρ c (Proc.devRef .tc main_arg16) = m ((c.tc : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c.tc : Thread nD τ).loc main_arg16) := rfl

/-! ## What the stretch before region 1 leaves -/

/-- The activations region 1 finds are what region 0 left in its output array. -/
theorem x_eq (c : Dev nD) : V3 m ρ c main_v13 = (dat0 (V1 m ρ) c).arrAt 9 cfg0.N := by
  show StableHlo.after hostOps1 (W2 m ρ c) (Proc.devRef .tc main_v13) = _
  refine (StableHlo.after_of_forall_not_mem (b := Proc.devRef .tc main_v13) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  exact W2_arr m ρ c 9

/-- The first projection's weights as the region finds them. -/
theorem wr_apply (c : Dev nD) (k : Fin 4096) (d : Fin 1024) :
    (V3 m ρ c main_v16 : S1024x4096.Idx → EReal) (ix2 d k) = Cert.Spec.w3 (m ((c.tc : Thread nD τ).loc main_arg9)) k d := by
  have e : @Eq (S1024x4096.Idx → EReal) (V3 m ρ c main_v16)
      (truncf (F := Ideal) .bf16 (transpose S1024x4096 [1, 0]
          (shapeCast S4096x1024 (W2 m ρ c (Proc.devRef .tc main_arg9)) shapeCasts_S4x1024x1024_S4096x1024)
          transposes_S4096x1024_S1024x4096_1_0) bitsLt_bf16_f32) := by
    show StableHlo.after hostOps1 _ (Proc.devRef .tc main_v16) = _
    after_results
    rfl
  exact (congrFun e (ix2 d k)).trans ((laidW_apply _ k d).trans
    (congrArg (fun w : S4x1024x1024.Idx → EReal => Cert.Spec.w3 w k d) (W2_arg9 m ρ c)))
/-- The first projection's bias. -/
theorem br_apply (c : Dev nD) (k : Fin 4096) :
    (V3 m ρ c main_v22 : S1x4096.Idx → EReal) (ix2 0 k) = Cert.Spec.b2 (m ((c.tc : Thread nD τ).loc main_arg10)) k := by
  have e : @Eq (S1x4096.Idx → EReal) (V3 m ρ c main_v22)
      (shapeCast S1x4096 (W2 m ρ c (Proc.devRef .tc main_arg10)) shapeCasts_S4x1024_S1x4096) := by
    show StableHlo.after hostOps1 _ (Proc.devRef .tc main_v22) = _
    after_results
    rfl
  exact (congrFun e (ix2 0 k)).trans ((laidB_apply _ k).trans
    (congrArg (fun b : S4x1024.Idx → EReal => Cert.Spec.b2 b k) (W2_arg10 m ρ c)))
/-- The second projection's weights. -/
theorem wl_apply (c : Dev nD) (k : Fin 4096) (d : Fin 1024) :
    (V3 m ρ c main_v19 : S1024x4096.Idx → EReal) (ix2 d k) = Cert.Spec.w3 (m ((c.tc : Thread nD τ).loc main_arg11)) k d := by
  have e : @Eq (S1024x4096.Idx → EReal) (V3 m ρ c main_v19)
      (truncf (F := Ideal) .bf16 (transpose S1024x4096 [1, 0]
          (shapeCast S4096x1024 (W2 m ρ c (Proc.devRef .tc main_arg11)) shapeCasts_S4x1024x1024_S4096x1024)
          transposes_S4096x1024_S1024x4096_1_0) bitsLt_bf16_f32) := by
    show StableHlo.after hostOps1 _ (Proc.devRef .tc main_v19) = _
    after_results
    rfl
  exact (congrFun e (ix2 d k)).trans ((laidW_apply _ k d).trans
    (congrArg (fun w : S4x1024x1024.Idx → EReal => Cert.Spec.w3 w k d) (W2_arg11 m ρ c)))
/-- The second projection's bias. -/
theorem bl_apply (c : Dev nD) (k : Fin 4096) :
    (V3 m ρ c main_v23 : S1x4096.Idx → EReal) (ix2 0 k) = Cert.Spec.b2 (m ((c.tc : Thread nD τ).loc main_arg12)) k := by
  have e : @Eq (S1x4096.Idx → EReal) (V3 m ρ c main_v23)
      (shapeCast S1x4096 (W2 m ρ c (Proc.devRef .tc main_arg12)) shapeCasts_S4x1024_S1x4096) := by
    show StableHlo.after hostOps1 _ (Proc.devRef .tc main_v23) = _
    after_results
    rfl
  exact (congrFun e (ix2 0 k)).trans ((laidB_apply _ k).trans
    (congrArg (fun b : S4x1024.Idx → EReal => Cert.Spec.b2 b k) (W2_arg12 m ρ c)))
/-- The output weights. -/
theorem we_apply (c : Dev nD) (d : Fin 1024) (k : Fin 4096) :
    (V3 m ρ c main_v21 : S4096x1024.Idx → EReal) (ix2 k d) = Cert.Spec.m2 (m ((c.tc : Thread nD τ).loc main_arg13)) d k := by
  have e : @Eq (S4096x1024.Idx → EReal) (V3 m ρ c main_v21)
      (truncf (F := Ideal) .bf16 (transpose S4096x1024 [1, 0] (W2 m ρ c (Proc.devRef .tc main_arg13))
          transposes_S1024x4096_S4096x1024_1_0) bitsLt_bf16_f32) := by
    show StableHlo.after hostOps1 _ (Proc.devRef .tc main_v21) = _
    after_results
  exact (congrFun e (ix2 k d)).trans ((laidE_apply _ d k).trans
    (congrArg (fun w : S1024x4096.Idx → EReal => Cert.Spec.m2 w d k) (W2_arg13 m ρ c)))
/-- The output bias. -/
theorem be_apply (c : Dev nD) (d : Fin 1024) :
    (V3 m ρ c main_v24 : S1x1024.Idx → EReal) (ix2 0 d) = Cert.Spec.v1 (m ((c.tc : Thread nD τ).loc main_arg14)) d := by
  have e : @Eq (S1x1024.Idx → EReal) (V3 m ρ c main_v24)
      (shapeCast S1x1024 (W2 m ρ c (Proc.devRef .tc main_arg14)) shapeCasts_S1024_S1x1024) := by
    show StableHlo.after hostOps1 _ (Proc.devRef .tc main_v24) = _
    after_results
    rfl
  exact (congrFun e (ix2 0 d)).trans ((laidV_apply _ d).trans
    (congrArg (fun u : S1024.Idx → EReal => Cert.Spec.v1 u d) (W2_arg14 m ρ c)))
/-- The normalisation's gain. -/
theorem g_apply (c : Dev nD) (d : Fin 1024) :
    (V3 m ρ c main_v25 : S1x1024.Idx → EReal) (ix2 0 d) = Cert.Spec.v1 (m ((c.tc : Thread nD τ).loc main_arg15)) d := by
  have e : @Eq (S1x1024.Idx → EReal) (V3 m ρ c main_v25)
      (shapeCast S1x1024 (W2 m ρ c (Proc.devRef .tc main_arg15)) shapeCasts_S1024_S1x1024) := by
    show StableHlo.after hostOps1 _ (Proc.devRef .tc main_v25) = _
    after_results
    rfl
  exact (congrFun e (ix2 0 d)).trans ((laidV_apply _ d).trans
    (congrArg (fun u : S1024.Idx → EReal => Cert.Spec.v1 u d) (W2_arg15 m ρ c)))
/-- The normalisation's offset. -/
theorem b_apply (c : Dev nD) (d : Fin 1024) :
    (V3 m ρ c main_v26 : S1x1024.Idx → EReal) (ix2 0 d) = Cert.Spec.v1 (m ((c.tc : Thread nD τ).loc main_arg16)) d := by
  have e : @Eq (S1x1024.Idx → EReal) (V3 m ρ c main_v26)
      (shapeCast S1x1024 (W2 m ρ c (Proc.devRef .tc main_arg16)) shapeCasts_S1024_S1x1024) := by
    show StableHlo.after hostOps1 _ (Proc.devRef .tc main_v26) = _
    after_results
    rfl
  exact (congrFun e (ix2 0 d)).trans ((laidV_apply _ d).trans
    (congrArg (fun u : S1024.Idx → EReal => Cert.Spec.v1 u d) (W2_arg16 m ρ c)))

end Cert.KernelIdeal.Host1

end
-- ==== Proof.KHead.lean ====
/-
  The program's result in terms of what region 1 left.

  After the second region the host transposes the head weights [output, input] to [input, output], contracts the
  region's output array against them, and adds the head bias broadcast over the rows.  Read at an entry (n, j):
  `(∑ d, h n d · wf j d) + bf j`, the specification's head of region 1's output array and the two arguments.
-/
import proofs.«150766_j26225070309871_1_alg».proof.Proof.Gen.KernelIdeal.Frame
import proofs.«150766_j26225070309871_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- On the rows' axis the left operand's index is the output's row. -/
private theorem lhs_head_0 (j : S16384x10.Idx) (k : dot_S16384x1024_S1024x10_S16384x10_1_0_0_1_n_n.contr.Idx) :
    (dot_S16384x1024_S1024x10_S16384x10_1_0_0_1_n_n.lhsIdx j k 0).val = (j 0).val := rfl

/-- On the contracted axis the left operand's index is the contraction index's coordinate. -/
private theorem lhs_head_1 (j : S16384x10.Idx) (k : dot_S16384x1024_S1024x10_S16384x10_1_0_0_1_n_n.contr.Idx) :
    (dot_S16384x1024_S1024x10_S16384x10_1_0_0_1_n_n.lhsIdx j k 1).val = (k ⟨0, by decide⟩).val :=
  DotDims.lhsIdx_val_of_single dot_S16384x1024_S1024x10_S16384x10_1_0_0_1_n_n rfl j k

/-- On the contracted axis the right operand's index is the contraction index's coordinate. -/
private theorem rhs_head_0 (j : S16384x10.Idx) (k : dot_S16384x1024_S1024x10_S16384x10_1_0_0_1_n_n.contr.Idx) :
    (dot_S16384x1024_S1024x10_S16384x10_1_0_0_1_n_n.rhsIdx j k 0).val = (k ⟨0, by decide⟩).val :=
  DotDims.rhsIdx_val_of_single dot_S16384x1024_S1024x10_S16384x10_1_0_0_1_n_n rfl j k

/-- On the columns' axis the right operand's index is the output's column. -/
private theorem rhs_head_1 (j : S16384x10.Idx) (k : dot_S16384x1024_S1024x10_S16384x10_1_0_0_1_n_n.contr.Idx) :
    (dot_S16384x1024_S1024x10_S16384x10_1_0_0_1_n_n.rhsIdx j k 1).val = (j 1).val := rfl

/-- The host's head over any three arrays is the specification's head of them: at an entry (n, j) the contraction
    against the transposed weights is `∑ d, h n d · wf j d` and the twice broadcast bias is `bf j`. -/
private theorem head_eq (h : FVec Ideal S16384x1024 .f32) (wf : FVec Ideal S10x1024 .f32) (bf : FVec Ideal S10 .f32) :
    addf (Host.dotGeneral dot_S16384x1024_S1024x10_S16384x10_1_0_0_1_n_n none h (transpose S1024x10 [1, 0] wf transposes_S10x1024_S1024x10_1_0))
        (broadcastInDim S16384x10 ![0, 1] bcast_S1x10_S16384x10_0_1 (broadcastInDim S1x10 ![1] bcast_S10_S1x10_1 bf))
      = Cert.Spec.headArr h wf bf := by
  funext i
  obtain ⟨n, j, rfl⟩ : ∃ (n : Fin 16384) (j : Fin 10), i = ix2 n j := ⟨i 0, i 1, eq_ix2 i⟩
  rw [Cert.Spec.headArr_apply, addf_apply]
  have hb : broadcastInDim S16384x10 ![0, 1] bcast_S1x10_S16384x10_0_1 (broadcastInDim S1x10 ![1] bcast_S10_S1x10_1 bf)
      (ix2 n j) = bf (ix1 j) := by
    refine (broadcastInDim_apply _ _ _ (ix2 n j) (ix2 (0 : Fin 1) j) fun a => ?_).trans ?_
    · match a with
      | ⟨0, _⟩ => rfl
      | ⟨1, _⟩ => rfl
    · exact broadcastInDim_apply _ _ _ (ix2 (0 : Fin 1) j) (ix1 j) fun a => by
        match a with
        | ⟨0, _⟩ => rfl
  have hd : Host.dotGeneral dot_S16384x1024_S1024x10_S16384x10_1_0_0_1_n_n none h
      (transpose S1024x10 [1, 0] wf transposes_S10x1024_S1024x10_1_0) (ix2 n j)
        = ∑ d : Fin 1024, h (ix2 n d) * wf (ix2 j d) := by
    simp only [Host.dotGeneral]
    rw [Ideal.dotGeneral_apply,
      ← Equiv.sum_comp (contrEquiv1 dot_S16384x1024_S1024x10_S16384x10_1_0_0_1_n_n 1024 rfl rfl).symm]
    refine Finset.sum_congr rfl fun d _ => ?_
    obtain ⟨κ, hκ, hk⟩ : ∃ κ : dot_S16384x1024_S1024x10_S16384x10_1_0_0_1_n_n.contr.Idx,
        (contrEquiv1 dot_S16384x1024_S1024x10_S16384x10_1_0_0_1_n_n 1024 rfl rfl).symm d = κ
          ∧ (κ ⟨0, by decide⟩ : ℕ) = d.val :=
      ⟨_, rfl, contrEquiv1_symm_val dot_S16384x1024_S1024x10_S16384x10_1_0_0_1_n_n 1024 rfl rfl d⟩
    rw [hκ]
    have hl : dot_S16384x1024_S1024x10_S16384x10_1_0_0_1_n_n.lhsIdx (ix2 n j) κ = ix2 n d :=
      funext fun a => Fin.ext (by
        match a with
        | ⟨0, _⟩ => exact lhs_head_0 _ _
        | ⟨1, _⟩ => exact (lhs_head_1 _ _).trans hk)
    have hr : dot_S16384x1024_S1024x10_S16384x10_1_0_0_1_n_n.rhsIdx (ix2 n j) κ = ix2 d j :=
      funext fun a => Fin.ext (by
        match a with
        | ⟨0, _⟩ => exact (rhs_head_0 _ _).trans hk
        | ⟨1, _⟩ => exact rhs_head_1 _ _)
    rw [hl, hr]
    exact congrArg (h (ix2 n d) * ·) (transpose_apply [1, 0] wf transposes_S10x1024_S1024x10_1_0 (ix2 d j) (ix2 j d) fun b => by
      match b with
      | ⟨0, _⟩ => rfl
      | ⟨1, _⟩ => rfl)
  rw [hd, hb]

/-- The result buffer at the last boundary is the head of region 1's output array. -/
theorem out_eq (c : Dev nD) :
    (W5 m ρ c (Proc.devRef .tc main_v32) : S16384x10.Idx → EReal)
      = Cert.Spec.headArr ((dat1 (V3 m ρ) c).arrAt 9 cfg1.N) (m ((c.tc : Thread nD τ).loc main_arg17)) (m ((c.tc : Thread nD τ).loc main_arg18)) := by
  have h27 : W4 m ρ c (Proc.devRef .tc main_v27) = (dat1 (V3 m ρ) c).arrAt 9 cfg1.N := W4_arr m ρ c 9
  have h17 : W4 m ρ c (Proc.devRef .tc main_arg17) = m ((c : Thread nD τ).loc main_arg17) :=
      calc W4 m ρ c (Proc.devRef .tc main_arg17)
        _ = W3 m ρ c (Proc.devRef .tc main_arg17) := W4_of_ne m ρ c main_arg17 (by decide)
        _ = W2 m ρ c (Proc.devRef .tc main_arg17) := StableHlo.after_of_forall_not_mem (b := Proc.devRef .tc main_arg17) _ _ (List.forall_iff_forall_mem.mp (by
              simp only [hostOps1, List.flatten_cons, List.flatten_nil, List.append_nil, List.cons_append,
                List.nil_append, List.Forall, StableHlo.nullary_writes, StableHlo.unary_writes, StableHlo.binary_writes, StableHlo.ternary_writes, StableHlo.quaternary_writes, StableHlo.reshape_writes, StableHlo.binaryIndexed_writes, Finset.mem_singleton]
              repeat' apply And.intro
              all_goals exact StableHlo.devRef_ne_of_ne (by decide)))
        _ = W1 m ρ c (Proc.devRef .tc main_arg17) := W2_of_ne m ρ c main_arg17 (by decide)
        _ = W0 m ρ c (Proc.devRef .tc main_arg17) := StableHlo.after_of_forall_not_mem (b := Proc.devRef .tc main_arg17) _ _ (List.forall_iff_forall_mem.mp (by
              simp only [hostOps0, List.flatten_cons, List.flatten_nil, List.append_nil, List.cons_append,
                List.nil_append, List.Forall, StableHlo.nullary_writes, StableHlo.unary_writes, StableHlo.binary_writes, StableHlo.ternary_writes, StableHlo.quaternary_writes, StableHlo.reshape_writes, StableHlo.binaryIndexed_writes, Finset.mem_singleton]
              repeat' apply And.intro
              all_goals exact StableHlo.devRef_ne_of_ne (by decide)))
        _ = m ((c : Thread nD τ).loc main_arg17) := rfl
  have h18 : W4 m ρ c (Proc.devRef .tc main_arg18) = m ((c : Thread nD τ).loc main_arg18) :=
      calc W4 m ρ c (Proc.devRef .tc main_arg18)
        _ = W3 m ρ c (Proc.devRef .tc main_arg18) := W4_of_ne m ρ c main_arg18 (by decide)
        _ = W2 m ρ c (Proc.devRef .tc main_arg18) := StableHlo.after_of_forall_not_mem (b := Proc.devRef .tc main_arg18) _ _ (List.forall_iff_forall_mem.mp (by
              simp only [hostOps1, List.flatten_cons, List.flatten_nil, List.append_nil, List.cons_append,
                List.nil_append, List.Forall, StableHlo.nullary_writes, StableHlo.unary_writes, StableHlo.binary_writes, StableHlo.ternary_writes, StableHlo.quaternary_writes, StableHlo.reshape_writes, StableHlo.binaryIndexed_writes, Finset.mem_singleton]
              repeat' apply And.intro
              all_goals exact StableHlo.devRef_ne_of_ne (by decide)))
        _ = W1 m ρ c (Proc.devRef .tc main_arg18) := W2_of_ne m ρ c main_arg18 (by decide)
        _ = W0 m ρ c (Proc.devRef .tc main_arg18) := StableHlo.after_of_forall_not_mem (b := Proc.devRef .tc main_arg18) _ _ (List.forall_iff_forall_mem.mp (by
              simp only [hostOps0, List.flatten_cons, List.flatten_nil, List.append_nil, List.cons_append,
                List.nil_append, List.Forall, StableHlo.nullary_writes, StableHlo.unary_writes, StableHlo.binary_writes, StableHlo.ternary_writes, StableHlo.quaternary_writes, StableHlo.reshape_writes, StableHlo.binaryIndexed_writes, Finset.mem_singleton]
              repeat' apply And.intro
              all_goals exact StableHlo.devRef_ne_of_ne (by decide)))
        _ = m ((c : Thread nD τ).loc main_arg18) := rfl
  have e : (W5 m ρ c (Proc.devRef .tc main_v32) : S16384x10.Idx → EReal)
      = Cert.Spec.headArr (W4 m ρ c (Proc.devRef .tc main_v27)) (W4 m ρ c (Proc.devRef .tc main_arg17))
          (W4 m ρ c (Proc.devRef .tc main_arg18)) := by
    refine Eq.trans ?_ (head_eq _ _ _)
    show StableHlo.after hostOps2 _ (Proc.devRef .tc main_v32) = _
    after_results
  rw [e, h27, h17, h18]

end Cert.KernelIdeal.Head

end
-- ==== Proof.SpecNet.lean ====
/-
  The whole network as one function of its nineteen argument arrays: two blocks, then the linear head.
-/
import proofs.«150766_j26225070309871_1_alg».proof.Proof.Spec

noncomputable section

namespace Cert.Spec

open Idealize.ShloMosaic

/-- The network's result [16384, 10]: the head of the second block of the first block of the activations `a0`, the
    blocks' weights `a1 … a8` and `a9 … a16`, the head's `a17`, `a18`. -/
def G (a0 : Act) (a1 : (⟨3, ![4, 1024, 1024]⟩ : Shape).Idx → EReal) (a2 : (⟨2, ![4, 1024]⟩ : Shape).Idx → EReal)
    (a3 : (⟨3, ![4, 1024, 1024]⟩ : Shape).Idx → EReal) (a4 : (⟨2, ![4, 1024]⟩ : Shape).Idx → EReal)
    (a5 : (⟨2, ![1024, 4096]⟩ : Shape).Idx → EReal) (a6 a7 a8 : (⟨1, ![1024]⟩ : Shape).Idx → EReal)
    (a9 : (⟨3, ![4, 1024, 1024]⟩ : Shape).Idx → EReal) (a10 : (⟨2, ![4, 1024]⟩ : Shape).Idx → EReal)
    (a11 : (⟨3, ![4, 1024, 1024]⟩ : Shape).Idx → EReal) (a12 : (⟨2, ![4, 1024]⟩ : Shape).Idx → EReal)
    (a13 : (⟨2, ![1024, 4096]⟩ : Shape).Idx → EReal) (a14 a15 a16 : (⟨1, ![1024]⟩ : Shape).Idx → EReal)
    (a17 : (⟨2, ![10, 1024]⟩ : Shape).Idx → EReal) (a18 : (⟨1, ![10]⟩ : Shape).Idx → EReal) :
    (⟨2, ![16384, 10]⟩ : Shape).Idx → EReal :=
  headArr (blockOf (blockOf a0 a1 a2 a3 a4 a5 a6 a7 a8) a9 a10 a11 a12 a13 a14 a15 a16) a17 a18

end Cert.Spec

end
-- ==== Proof.KValue.lean ====
/-
  The kernel program's result as the specification's function of the launch arguments.

  Region 0's output array is the specification's block of the arrays it finds (the blocks module), and those
  arrays are the first nine arguments in the kernel's layout (the host module), so it is `Spec.blockOf` of the
  arguments.  Region 1 finds region 0's output as its activations and the next eight arguments laid out the same
  way, so its output is the second block.  The head after it gives `Spec.G`.
-/
import proofs.«150766_j26225070309871_1_alg».proof.Proof.KRun
import proofs.«150766_j26225070309871_1_alg».proof.Proof.KBlocks0
import proofs.«150766_j26225070309871_1_alg».proof.Proof.KBlocks1
import proofs.«150766_j26225070309871_1_alg».proof.Proof.KHost0
import proofs.«150766_j26225070309871_1_alg».proof.Proof.KHost1
import proofs.«150766_j26225070309871_1_alg».proof.Proof.KHead
import proofs.«150766_j26225070309871_1_alg».proof.Proof.SpecNet

set_option maxRecDepth 16384

noncomputable section

namespace Cert.KernelIdeal.NetValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 0 leaves the first block of the arguments in its output array. -/
theorem first_block (c : Dev nD) :
    (dat0 (V1 m ρ) c).arrAt 9 cfg0.N
      = Cert.Spec.blockOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hwr : (fun (k : Fin 4096) (d : Fin 1024) => (V1 m ρ c main_v2 : S1024x4096.Idx → EReal) (ix2 d k)) = Cert.Spec.w3 (m ((c.tc : Thread nD τ).loc main_arg1)) :=
    funext fun k => funext fun d => Host0.wr_apply m ρ c k d
  have hbr : (fun (k : Fin 4096) => (V1 m ρ c main_v8 : S1x4096.Idx → EReal) (ix2 0 k)) = Cert.Spec.b2 (m ((c.tc : Thread nD τ).loc main_arg2)) :=
    funext fun k => Host0.br_apply m ρ c k
  have hwl : (fun (k : Fin 4096) (d : Fin 1024) => (V1 m ρ c main_v5 : S1024x4096.Idx → EReal) (ix2 d k)) = Cert.Spec.w3 (m ((c.tc : Thread nD τ).loc main_arg3)) :=
    funext fun k => funext fun d => Host0.wl_apply m ρ c k d
  have hbl : (fun (k : Fin 4096) => (V1 m ρ c main_v9 : S1x4096.Idx → EReal) (ix2 0 k)) = Cert.Spec.b2 (m ((c.tc : Thread nD τ).loc main_arg4)) :=
    funext fun k => Host0.bl_apply m ρ c k
  have hwe : (fun (d : Fin 1024) (k : Fin 4096) => (V1 m ρ c main_v7 : S4096x1024.Idx → EReal) (ix2 k d)) = Cert.Spec.m2 (m ((c.tc : Thread nD τ).loc main_arg5)) :=
    funext fun d => funext fun k => Host0.we_apply m ρ c d k
  have hbe : (fun (d : Fin 1024) => (V1 m ρ c main_v10 : S1x1024.Idx → EReal) (ix2 0 d)) = Cert.Spec.v1 (m ((c.tc : Thread nD τ).loc main_arg6)) :=
    funext fun d => Host0.be_apply m ρ c d
  have hg : (fun (d : Fin 1024) => (V1 m ρ c main_v11 : S1x1024.Idx → EReal) (ix2 0 d)) = Cert.Spec.v1 (m ((c.tc : Thread nD τ).loc main_arg7)) :=
    funext fun d => Host0.g_apply m ρ c d
  have hb : (fun (d : Fin 1024) => (V1 m ρ c main_v12 : S1x1024.Idx → EReal) (ix2 0 d)) = Cert.Spec.v1 (m ((c.tc : Thread nD τ).loc main_arg8)) :=
    funext fun d => Host0.b_apply m ρ c d
  rw [Blocks0.final (V1 m ρ) c]
  unfold Blocks0.entryFn Cert.Spec.blockOf
  rw [hwr, hbr, hwl, hbl, hwe, hbe, hg, hb, Host0.x_eq m ρ c]

/-- Region 1 leaves the second block, of region 0's output and the next eight arguments. -/
theorem second_block (c : Dev nD) :
    (dat1 (V3 m ρ) c).arrAt 9 cfg1.N
      = Cert.Spec.blockOf (Cert.Spec.blockOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have hwr : (fun (k : Fin 4096) (d : Fin 1024) => (V3 m ρ c main_v16 : S1024x4096.Idx → EReal) (ix2 d k)) = Cert.Spec.w3 (m ((c.tc : Thread nD τ).loc main_arg9)) :=
    funext fun k => funext fun d => Host1.wr_apply m ρ c k d
  have hbr : (fun (k : Fin 4096) => (V3 m ρ c main_v22 : S1x4096.Idx → EReal) (ix2 0 k)) = Cert.Spec.b2 (m ((c.tc : Thread nD τ).loc main_arg10)) :=
    funext fun k => Host1.br_apply m ρ c k
  have hwl : (fun (k : Fin 4096) (d : Fin 1024) => (V3 m ρ c main_v19 : S1024x4096.Idx → EReal) (ix2 d k)) = Cert.Spec.w3 (m ((c.tc : Thread nD τ).loc main_arg11)) :=
    funext fun k => funext fun d => Host1.wl_apply m ρ c k d
  have hbl : (fun (k : Fin 4096) => (V3 m ρ c main_v23 : S1x4096.Idx → EReal) (ix2 0 k)) = Cert.Spec.b2 (m ((c.tc : Thread nD τ).loc main_arg12)) :=
    funext fun k => Host1.bl_apply m ρ c k
  have hwe : (fun (d : Fin 1024) (k : Fin 4096) => (V3 m ρ c main_v21 : S4096x1024.Idx → EReal) (ix2 k d)) = Cert.Spec.m2 (m ((c.tc : Thread nD τ).loc main_arg13)) :=
    funext fun d => funext fun k => Host1.we_apply m ρ c d k
  have hbe : (fun (d : Fin 1024) => (V3 m ρ c main_v24 : S1x1024.Idx → EReal) (ix2 0 d)) = Cert.Spec.v1 (m ((c.tc : Thread nD τ).loc main_arg14)) :=
    funext fun d => Host1.be_apply m ρ c d
  have hg : (fun (d : Fin 1024) => (V3 m ρ c main_v25 : S1x1024.Idx → EReal) (ix2 0 d)) = Cert.Spec.v1 (m ((c.tc : Thread nD τ).loc main_arg15)) :=
    funext fun d => Host1.g_apply m ρ c d
  have hb : (fun (d : Fin 1024) => (V3 m ρ c main_v26 : S1x1024.Idx → EReal) (ix2 0 d)) = Cert.Spec.v1 (m ((c.tc : Thread nD τ).loc main_arg16)) :=
    funext fun d => Host1.b_apply m ρ c d
  rw [Blocks1.final (V3 m ρ) c]
  unfold Blocks1.entryFn Cert.Spec.blockOf
  rw [hwr, hbr, hwl, hbl, hwe, hbe, hg, hb, Host1.x_eq m ρ c, first_block m ρ c]
  rfl

/-- The result buffer at the last boundary is the network's function of the arguments. -/
theorem result_eq (c : Dev nD) :
    W5 m ρ c (Proc.devRef .tc main_v32)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (Head.out_eq m ρ c).trans (by rw [second_block m ρ c]; rfl)

/-- Every weakly fair execution of the kernel program terminates with the result buffer at `Spec.G` of the arguments
    as launched, and the arguments unchanged. -/
theorem run_G : θ_run defs (onTc (τ := τ) (main (F := Ideal))) ⟨m, fun _ => 0, ρ⟩ fun r => ∀ c : Dev nD,
      r.2.mem ((c.tc : Thread nD τ).loc main_v32)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans (result_eq m ρ c), (h c).2⟩) (Cert.KernelIdeal.Named.run_named (F := Ideal) m ρ)

end Cert.KernelIdeal.NetValue

end
-- ==== Proof.RefBlock.lean ====
/-
  The reference's block, as its own operations, and that it is the specification's.

  The reference computes a block on the whole array at once: two contractions of the activations against
  the projection weights [basis, unit, input], their biases broadcast over the rows, the product reshaped
  from [row, basis, unit] to [row, hidden], a contraction against the transposed output weights, the
  residual, and the row statistics by sums over the row.  Read at one entry (n, d), each operation names
  one entry of its operands (a contraction: a sum over the contracted index; the reshape: hidden unit k is
  unit k % 1024 of basis k / 1024), and what results is `Spec.blockOf` at (n, d).
-/
import proofs.«150766_j26225070309871_1_alg».proof.Proof.Gen.ReferenceIdeal
import proofs.«150766_j26225070309871_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.ReferenceIdeal.Block

open Cert.ReferenceIdeal Cert.ReferenceIdeal.Gen
open Idealize.ShloMosaic Idealize.ShloMosaic.TcCoe Idealize.ShloMosaic.ValueIdx

/-- The bilinear layer with its residual, on the whole array. -/
def preArr (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) : FVec Ideal S16384x1024 .f32 :=
  addf x (addf (Host.dotGeneral dot_S16384x4096_S4096x1024_S16384x1024_1_0_0_1_n_n none (shapeCast _ (mulf (addf (Host.dotGeneral dot_S16384x1024_S4x1024x1024_S16384x4x1024_1_2_0_01_n_n none x wr) (broadcastInDim S16384x4x1024 ![0, 1, 2] bcast_S1x4x1024_S16384x4x1024_0_1_2 (broadcastInDim S1x4x1024 ![1, 2] bcast_S4x1024_S1x4x1024_1_2 br))) (addf (Host.dotGeneral dot_S16384x1024_S4x1024x1024_S16384x4x1024_1_2_0_01_n_n none x wl) (broadcastInDim S16384x4x1024 ![0, 1, 2] bcast_S1x4x1024_S16384x4x1024_0_1_2 (broadcastInDim S1x4x1024 ![1, 2] bcast_S4x1024_S1x4x1024_1_2 bl)))) shapeCasts_S16384x4x1024_S16384x4096) (transpose S4096x1024 [1, 0] we transposes_S1024x4096_S4096x1024_1_0)) (broadcastInDim S16384x1024 ![0, 1] bcast_S1x1024_S16384x1024_0_1 (broadcastInDim S1x1024 ![1] bcast_S1024_S1x1024_1 be)))

/-- Each row's mean, as a column. -/
def meanArr (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) : FVec Ideal S16384x1 .f32 :=
  Host.divf (broadcastInDim S16384x1 ![0] bcast_S16384_S16384x1_0 (Host.reduceAdd (preArr x wr br wl bl we be) (constant S_ .f32 0x00000000#32) reducesTo_S16384x1024_S16384_d1 h_S_)) (broadcastInDim S16384x1 ![] bcast_S_S16384x1 (constant S_ .f32 0x44800000#32))

/-- The array with each row's mean taken off. -/
def cenArr (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) : FVec Ideal S16384x1024 .f32 :=
  subf (preArr x wr br wl bl we be) (broadcastInDim S16384x1024 ![0, 1] bcast_S16384x1_S16384x1024_0_1 (meanArr x wr br wl bl we be))

/-- One block of the reference: the bilinear layer with residual, then layer normalisation with gain `g` and offset `b`. -/
def refBlock (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (g b : FVec Ideal S1024 .f32) : FVec Ideal S16384x1024 .f32 :=
  addf (mulf (mulf (subf (preArr x wr br wl bl we be) (broadcastInDim S16384x1024 ![0, 1] bcast_S16384x1_S16384x1024_0_1 (meanArr x wr br wl bl we be))) (broadcastInDim S16384x1024 ![0, 1] bcast_S16384x1_S16384x1024_0_1 (Host.rsqrt (addf (Host.divf (broadcastInDim S16384x1 ![0] bcast_S16384_S16384x1_0 (Host.reduceAdd (mulf (cenArr x wr br wl bl we be) (cenArr x wr br wl bl we be)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-! ## The two contractions, read at an entry -/

/-- In the contraction of the activations [row, input] against the projection weights [basis, unit, input], the
    activations' row coordinate at result entry (row; basis, unit) is the row. -/
private theorem projDot_lhs_0 (j : S16384x4x1024.Idx) (k : dot_S16384x1024_S4x1024x1024_S16384x4x1024_1_2_0_01_n_n.contr.Idx) :
    (dot_S16384x1024_S4x1024x1024_S16384x4x1024_1_2_0_01_n_n.lhsIdx j k 0).val = (j 0).val := rfl
/-- The activations' input coordinate is the contracted index. -/
private theorem projDot_lhs_1 (j : S16384x4x1024.Idx) (k : dot_S16384x1024_S4x1024x1024_S16384x4x1024_1_2_0_01_n_n.contr.Idx) :
    (dot_S16384x1024_S4x1024x1024_S16384x4x1024_1_2_0_01_n_n.lhsIdx j k 1).val = (k ⟨0, by decide⟩).val := rfl
/-- The weights' basis coordinate is the result's. -/
private theorem projDot_rhs_0 (j : S16384x4x1024.Idx) (k : dot_S16384x1024_S4x1024x1024_S16384x4x1024_1_2_0_01_n_n.contr.Idx) :
    (dot_S16384x1024_S4x1024x1024_S16384x4x1024_1_2_0_01_n_n.rhsIdx j k 0).val = (j 1).val := rfl
/-- The weights' unit coordinate is the result's. -/
private theorem projDot_rhs_1 (j : S16384x4x1024.Idx) (k : dot_S16384x1024_S4x1024x1024_S16384x4x1024_1_2_0_01_n_n.contr.Idx) :
    (dot_S16384x1024_S4x1024x1024_S16384x4x1024_1_2_0_01_n_n.rhsIdx j k 1).val = (j 2).val := rfl
/-- The weights' input coordinate is the contracted index. -/
private theorem projDot_rhs_2 (j : S16384x4x1024.Idx) (k : dot_S16384x1024_S4x1024x1024_S16384x4x1024_1_2_0_01_n_n.contr.Idx) :
    (dot_S16384x1024_S4x1024x1024_S16384x4x1024_1_2_0_01_n_n.rhsIdx j k 2).val = (k ⟨0, by decide⟩).val := rfl

/-- The projection's contraction at (n; h, r): the sum over the inputs d of x[n, d] · w[h, r, d]. -/
private theorem projDot_apply (x : FVec Ideal S16384x1024 .f32) (w : FVec Ideal S4x1024x1024 .f32) (n : Fin 16384) (h : Fin 4)
    (r : Fin 1024) :
    Host.dotGeneral (F := Ideal) dot_S16384x1024_S4x1024x1024_S16384x4x1024_1_2_0_01_n_n none x w (ix3 n h r) = ∑ d : Fin 1024, x (ix2 n d) * w (ix3 h r d) := by
  simp only [Host.dotGeneral]
  refine (Ideal.dotGeneral_apply _ _ _ x w (ix3 n h r)).trans ?_
  rw [← Equiv.sum_comp (contrEquiv1 dot_S16384x1024_S4x1024x1024_S16384x4x1024_1_2_0_01_n_n 1024 rfl rfl).symm]
  refine Finset.sum_congr rfl fun d _ => ?_
  have hl : dot_S16384x1024_S4x1024x1024_S16384x4x1024_1_2_0_01_n_n.lhsIdx (ix3 n h r) ((contrEquiv1 dot_S16384x1024_S4x1024x1024_S16384x4x1024_1_2_0_01_n_n 1024 rfl rfl).symm d) = ix2 n d := by
    funext a; refine Fin.ext ?_
    match a with
    | ⟨0, _⟩ => exact projDot_lhs_0 _ _
    | ⟨1, _⟩ => exact (projDot_lhs_1 _ _).trans (contrEquiv1_symm_val _ _ _ _ d)
  have hr : dot_S16384x1024_S4x1024x1024_S16384x4x1024_1_2_0_01_n_n.rhsIdx (ix3 n h r) ((contrEquiv1 dot_S16384x1024_S4x1024x1024_S16384x4x1024_1_2_0_01_n_n 1024 rfl rfl).symm d) = ix3 h r d := by
    funext a; refine Fin.ext ?_
    match a with
    | ⟨0, _⟩ => exact projDot_rhs_0 _ _
    | ⟨1, _⟩ => exact projDot_rhs_1 _ _
    | ⟨2, _⟩ => exact (projDot_rhs_2 _ _).trans (contrEquiv1_symm_val _ _ _ _ d)
  rw [hl, hr]

/-- In the contraction of the hidden units [row, hidden] against the transposed output weights [hidden, output], the
    left operand's row coordinate at result entry (row, output) is the row. -/
private theorem outDot_lhs_0 (j : S16384x1024.Idx) (k : dot_S16384x4096_S4096x1024_S16384x1024_1_0_0_1_n_n.contr.Idx) :
    (dot_S16384x4096_S4096x1024_S16384x1024_1_0_0_1_n_n.lhsIdx j k 0).val = (j 0).val := rfl
/-- The left operand's hidden coordinate is the contracted index. -/
private theorem outDot_lhs_1 (j : S16384x1024.Idx) (k : dot_S16384x4096_S4096x1024_S16384x1024_1_0_0_1_n_n.contr.Idx) :
    (dot_S16384x4096_S4096x1024_S16384x1024_1_0_0_1_n_n.lhsIdx j k 1).val = (k ⟨0, by decide⟩).val := rfl
/-- The right operand's hidden coordinate is the contracted index. -/
private theorem outDot_rhs_0 (j : S16384x1024.Idx) (k : dot_S16384x4096_S4096x1024_S16384x1024_1_0_0_1_n_n.contr.Idx) :
    (dot_S16384x4096_S4096x1024_S16384x1024_1_0_0_1_n_n.rhsIdx j k 0).val = (k ⟨0, by decide⟩).val := rfl
/-- The right operand's output coordinate is the result's. -/
private theorem outDot_rhs_1 (j : S16384x1024.Idx) (k : dot_S16384x4096_S4096x1024_S16384x1024_1_0_0_1_n_n.contr.Idx) :
    (dot_S16384x4096_S4096x1024_S16384x1024_1_0_0_1_n_n.rhsIdx j k 1).val = (j 1).val := rfl

/-- The output contraction at (n, d): the sum over the hidden units k of l[n, k] · r[k, d]. -/
private theorem outDot_apply (l : FVec Ideal S16384x4096 .f32) (r : FVec Ideal S4096x1024 .f32) (n : Fin 16384) (d : Fin 1024) :
    Host.dotGeneral (F := Ideal) dot_S16384x4096_S4096x1024_S16384x1024_1_0_0_1_n_n none l r (ix2 n d) = ∑ k : Fin 4096, l (ix2 n k) * r (ix2 k d) := by
  simp only [Host.dotGeneral]
  refine (Ideal.dotGeneral_apply _ _ _ l r (ix2 n d)).trans ?_
  rw [← Equiv.sum_comp (contrEquiv1 dot_S16384x4096_S4096x1024_S16384x1024_1_0_0_1_n_n 4096 rfl rfl).symm]
  refine Finset.sum_congr rfl fun k _ => ?_
  have hl : dot_S16384x4096_S4096x1024_S16384x1024_1_0_0_1_n_n.lhsIdx (ix2 n d) ((contrEquiv1 dot_S16384x4096_S4096x1024_S16384x1024_1_0_0_1_n_n 4096 rfl rfl).symm k) = ix2 n k := by
    funext a; refine Fin.ext ?_
    match a with
    | ⟨0, _⟩ => exact outDot_lhs_0 _ _
    | ⟨1, _⟩ => exact (outDot_lhs_1 _ _).trans (contrEquiv1_symm_val _ _ _ _ k)
  have hr : dot_S16384x4096_S4096x1024_S16384x1024_1_0_0_1_n_n.rhsIdx (ix2 n d) ((contrEquiv1 dot_S16384x4096_S4096x1024_S16384x1024_1_0_0_1_n_n 4096 rfl rfl).symm k) = ix2 k d := by
    funext a; refine Fin.ext ?_
    match a with
    | ⟨0, _⟩ => exact (outDot_rhs_0 _ _).trans (contrEquiv1_symm_val _ _ _ _ k)
    | ⟨1, _⟩ => exact outDot_rhs_1 _ _
  rw [hl, hr]

/-! ## The broadcasts, the reshape and the transpose, read at an entry -/

section Layout
variable {α : Type}

/-- A [basis, unit] array broadcast over the rows reads, at (n; h, r), its entry (h, r). -/
private theorem biasBcast_apply (v : S4x1024.Idx → α) (n : Fin 16384) (h : Fin 4) (r : Fin 1024) :
    broadcastInDim S16384x4x1024 ![0, 1, 2] bcast_S1x4x1024_S16384x4x1024_0_1_2
        (broadcastInDim S1x4x1024 ![1, 2] bcast_S4x1024_S1x4x1024_1_2 v) (ix3 n h r) = v (ix2 h r) := by
  refine (broadcastInDim_apply _ _ _ (ix3 n h r) (ix3 (0 : Fin 1) h r) fun a => ?_).trans ?_
  · match a with
    | ⟨0, _⟩ => rfl
    | ⟨1, _⟩ => rfl
    | ⟨2, _⟩ => rfl
  · refine broadcastInDim_apply _ _ _ (ix3 (0 : Fin 1) h r) (ix2 h r) fun a => ?_
    match a with
    | ⟨0, _⟩ => rfl
    | ⟨1, _⟩ => rfl

/-- A vector of 1024 broadcast over the rows reads, at (n, d), its entry d. -/
private theorem vecBcast_apply (v : S1024.Idx → α) (n : Fin 16384) (d : Fin 1024) :
    broadcastInDim S16384x1024 ![0, 1] bcast_S1x1024_S16384x1024_0_1
        (broadcastInDim S1x1024 ![1] bcast_S1024_S1x1024_1 v) (ix2 n d) = v (ix1 d) := by
  refine (broadcastInDim_apply _ _ _ (ix2 n d) (ix2 (0 : Fin 1) d) fun a => ?_).trans ?_
  · match a with
    | ⟨0, _⟩ => rfl
    | ⟨1, _⟩ => rfl
  · refine broadcastInDim_apply _ _ _ (ix2 (0 : Fin 1) d) (ix1 d) fun a => ?_
    match a with
    | ⟨0, _⟩ => rfl

/-- A vector of 16384 as a column reads, at (n, 0), its entry n. -/
private theorem colBcast_apply (v : S16384.Idx → α) (n : Fin 16384) (u : Fin 1) :
    broadcastInDim S16384x1 ![0] bcast_S16384_S16384x1_0 v (ix2 n u) = v (ix1 n) := by
  refine broadcastInDim_apply _ _ _ (ix2 n u) (ix1 n) fun a => ?_
  match a with
  | ⟨0, _⟩ => rfl

/-- A column broadcast along the rows reads, at (n, d), the column's entry n. -/
private theorem rowBcast_apply (v : S16384x1.Idx → α) (n : Fin 16384) (d : Fin 1024) :
    broadcastInDim S16384x1024 ![0, 1] bcast_S16384x1_S16384x1024_0_1 v (ix2 n d) = v (ix2 n (0 : Fin 1)) := by
  refine broadcastInDim_apply _ _ _ (ix2 n d) (ix2 n (0 : Fin 1)) fun a => ?_
  match a with
  | ⟨0, _⟩ => rfl
  | ⟨1, _⟩ => rfl

/-- A scalar broadcast to a column reads its one value everywhere. -/
private theorem scalarBcast_apply (v : S_.Idx → α) (n : Fin 16384) (u : Fin 1) :
    broadcastInDim S16384x1 ![] bcast_S_S16384x1 v (ix2 n u) = v ix0 := by
  refine broadcastInDim_apply _ _ _ (ix2 n u) ix0 fun a => ?_
  exact a.elim0

/-- The reshape from [row, basis, unit] to [row, hidden]: hidden unit k is unit k % 1024 of basis k / 1024. -/
private theorem reshape_apply (v : S16384x4x1024.Idx → α) (n : Fin 16384) (k : Fin 4096) :
    shapeCast S16384x4096 v shapeCasts_S16384x4x1024_S16384x4096 (ix2 n k)
      = v (ix3 n (Cert.Spec.hi k) (Cert.Spec.lo k)) := by
  refine shapeCast_apply v _ (ix2 n k) (ix3 n (Cert.Spec.hi k) (Cert.Spec.lo k)) ?_
  rw [Shape.rowMajor_val_three, Shape.rowMajor_val_two]
  show (n.val * 4 + k.val / 1024) * 1024 + k.val % 1024 = n.val * 4096 + k.val
  omega

/-- The transposed output weights at (k, d) are the stored ones at (d, k). -/
private theorem weT_apply (v : S1024x4096.Idx → α) (k : Fin 4096) (d : Fin 1024) :
    transpose S4096x1024 [1, 0] v transposes_S1024x4096_S4096x1024_1_0 (ix2 k d) = v (ix2 d k) :=
  transpose_ix2_apply v _ k d

end Layout

/-! ## The row sum and the entrywise host operations, read at an entry -/

/-- The sum along the rows from the zero initial value, at row n: the sum of that row's entries. -/
private theorem rowSum_apply (v : FVec Ideal S16384x1024 .f32) (n : Fin 16384) :
    Host.reduceAdd (F := Ideal) v (constant (F := Ideal) S_ .f32 0x00000000#32) reducesTo_S16384x1024_S16384_d1 h_S_ (ix1 n)
      = ∑ d : Fin 1024, v (ix2 n d) := by
  unfold Host.reduceAdd
  refine (Ideal.hostReduceAdd_single reducesTo_S16384x1024_S16384_d1 (by decide) v _ (ix1 n)).trans ?_
  rw [constant_apply, Ideal.ofBits_zero_f32, zero_add]
  refine Finset.sum_congr rfl fun d _ => congrArg v ?_
  funext a
  match a with
  | ⟨0, _⟩ => rfl
  | ⟨1, _⟩ => rfl

/-- The host's quotient at an entry is the quotient of the entries. -/
private theorem hostDivf_apply {s : Shape} (a b : FVec Ideal s .f32) (i : s.Idx) :
    Host.divf a b i = Ideal.div (a i) (b i) := rfl

/-- The host's reciprocal square root at an entry is that of the entry. -/
private theorem hostRsqrt_apply {s : Shape} (a : FVec Ideal s .f32) (i : s.Idx) :
    Host.rsqrt a i = Ideal.rsqrt (a i) := rfl

/-- A row's sum divided by the row length, as the reference writes the mean of each row of an array. -/
private theorem meanOf_apply (v : FVec Ideal S16384x1024 .f32) (n : Fin 16384) (u : Fin 1) :
    Host.divf (F := Ideal) (broadcastInDim S16384x1 ![0] bcast_S16384_S16384x1_0
        (Host.reduceAdd (F := Ideal) v (constant (F := Ideal) S_ .f32 0x00000000#32) reducesTo_S16384x1024_S16384_d1 h_S_))
      (broadcastInDim S16384x1 ![] bcast_S_S16384x1 (constant (F := Ideal) S_ .f32 0x44800000#32)) (ix2 n u)
      = Cert.Spec.mean (fun d => v (ix2 n d)) := by
  rw [hostDivf_apply, colBcast_apply, scalarBcast_apply, rowSum_apply]
  rfl

/-! ## The block -/

/-- Row n of the bilinear layer with its residual, as the specification writes it over the argument arrays. -/
abbrev preRow (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (n : Fin 16384) : Fin 1024 → EReal :=
  Cert.Spec.pre (fun d' => x (ix2 n d')) (Cert.Spec.w3 wr) (Cert.Spec.b2 br) (Cert.Spec.w3 wl) (Cert.Spec.b2 bl)
    (Cert.Spec.m2 we) (Cert.Spec.v1 be)

/-- The reference's bilinear layer with residual at (n, d) is the specification's row n at d. -/
private theorem preArr_apply (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (n : Fin 16384) (d : Fin 1024) :
    preArr x wr br wl bl we be (ix2 n d) = preRow x wr br wl bl we be n d := by
  unfold preArr
  rw [addf_apply, addf_apply, outDot_apply, vecBcast_apply]
  refine congrArg (x (ix2 n d) + ·) (congrArg (· + be (ix1 d)) ?_)
  refine Finset.sum_congr rfl fun k _ => ?_
  rw [reshape_apply, weT_apply, mulf_apply, addf_apply, addf_apply, projDot_apply, projDot_apply, biasBcast_apply,
    biasBcast_apply]
  rfl

/-- The reference's column of means at row n is the mean of the specification's row n. -/
private theorem meanArr_apply (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (n : Fin 16384) (u : Fin 1) :
    meanArr x wr br wl bl we be (ix2 n u) = Cert.Spec.mean (preRow x wr br wl bl we be n) := by
  unfold meanArr
  rw [meanOf_apply]
  exact congrArg Cert.Spec.mean (funext fun d => preArr_apply x wr br wl bl we be n d)

/-- The reference's centred array at (n, d) is the specification's row n at d less that row's mean. -/
private theorem cenArr_apply (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (n : Fin 16384) (d : Fin 1024) :
    cenArr x wr br wl bl we be (ix2 n d) = preRow x wr br wl bl we be n d - Cert.Spec.mean (preRow x wr br wl bl we be n) := by
  unfold cenArr
  rw [subf_apply, rowBcast_apply, preArr_apply, meanArr_apply]

/-- The reference's block is the specification's block of the same arrays. -/
theorem refBlock_eq (x : FVec Ideal S16384x1024 .f32) (wr : FVec Ideal S4x1024x1024 .f32) (br : FVec Ideal S4x1024 .f32) (wl : FVec Ideal S4x1024x1024 .f32) (bl : FVec Ideal S4x1024 .f32) (we : FVec Ideal S1024x4096 .f32) (be : FVec Ideal S1024 .f32) (g b : FVec Ideal S1024 .f32) :
    refBlock x wr br wl bl we be g b = Cert.Spec.blockOf x wr br wl bl we be g b := by
  funext i
  obtain ⟨n, d, rfl⟩ : ∃ n d, i = ix2 n d := ⟨i 0, i 1, eq_ix2 i⟩
  rw [Cert.Spec.blockOf, Cert.Spec.blockArr_apply]
  unfold refBlock Cert.Spec.blockRow Cert.Spec.lnRow
  rw [addf_apply, mulf_apply, mulf_apply, subf_apply, rowBcast_apply, rowBcast_apply, vecBcast_apply, vecBcast_apply,
    preArr_apply, meanArr_apply, hostRsqrt_apply, addf_apply, scalarBcast_apply, meanOf_apply]
  have hc : (fun d' => mulf (cenArr x wr br wl bl we be) (cenArr x wr br wl bl we be) (ix2 n d'))
      = fun d' => (preRow x wr br wl bl we be n d' - Cert.Spec.mean (preRow x wr br wl bl we be n)) * (preRow x wr br wl bl we be n d' - Cert.Spec.mean (preRow x wr br wl bl we be n)) :=
    funext fun d' => by rw [mulf_apply, cenArr_apply]
  rw [hc]
  rfl

end Cert.ReferenceIdeal.Block

end
-- ==== Proof.RefHead.lean ====
/-
  The reference's linear head, as its own operations, and that it is the specification's.

  The head transposes the head weights [output, input] to [input, output], contracts the activations against
  them, and adds the head bias broadcast over the rows.  Read at an entry (n, j) the contraction is a sum
  over the input index d of `h n d · wf j d`, and the broadcast bias is `bf j`.
-/
import proofs.«150766_j26225070309871_1_alg».proof.Proof.Gen.ReferenceIdeal
import proofs.«150766_j26225070309871_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.ReferenceIdeal.Block

open Cert.ReferenceIdeal Cert.ReferenceIdeal.Gen
open Idealize.ShloMosaic Idealize.ShloMosaic.TcCoe Idealize.ShloMosaic.ValueIdx

/-- The reference's linear head. -/
def refHead (h : FVec Ideal S16384x1024 .f32) (wf : FVec Ideal S10x1024 .f32) (bf : FVec Ideal S10 .f32) : FVec Ideal S16384x10 .f32 :=
  addf (Host.dotGeneral dot_S16384x1024_S1024x10_S16384x10_1_0_0_1_n_n none h (transpose S1024x10 [1, 0] wf transposes_S10x1024_S1024x10_1_0)) (broadcastInDim S16384x10 ![0, 1] bcast_S1x10_S16384x10_0_1 (broadcastInDim S1x10 ![1] bcast_S10_S1x10_1 bf))

/-- On the rows' axis the left operand's index is the output's row. -/
private theorem lhs_head_0 (j : S16384x10.Idx) (k : dot_S16384x1024_S1024x10_S16384x10_1_0_0_1_n_n.contr.Idx) :
    (dot_S16384x1024_S1024x10_S16384x10_1_0_0_1_n_n.lhsIdx j k 0).val = (j 0).val := rfl

/-- On the contracted axis the left operand's index is the contraction index's coordinate. -/
private theorem lhs_head_1 (j : S16384x10.Idx) (k : dot_S16384x1024_S1024x10_S16384x10_1_0_0_1_n_n.contr.Idx) :
    (dot_S16384x1024_S1024x10_S16384x10_1_0_0_1_n_n.lhsIdx j k 1).val = (k ⟨0, by decide⟩).val :=
  DotDims.lhsIdx_val_of_single dot_S16384x1024_S1024x10_S16384x10_1_0_0_1_n_n rfl j k

/-- On the contracted axis the right operand's index is the contraction index's coordinate. -/
private theorem rhs_head_0 (j : S16384x10.Idx) (k : dot_S16384x1024_S1024x10_S16384x10_1_0_0_1_n_n.contr.Idx) :
    (dot_S16384x1024_S1024x10_S16384x10_1_0_0_1_n_n.rhsIdx j k 0).val = (k ⟨0, by decide⟩).val :=
  DotDims.rhsIdx_val_of_single dot_S16384x1024_S1024x10_S16384x10_1_0_0_1_n_n rfl j k

/-- On the columns' axis the right operand's index is the output's column. -/
private theorem rhs_head_1 (j : S16384x10.Idx) (k : dot_S16384x1024_S1024x10_S16384x10_1_0_0_1_n_n.contr.Idx) :
    (dot_S16384x1024_S1024x10_S16384x10_1_0_0_1_n_n.rhsIdx j k 1).val = (j 1).val := rfl

/-- The reference's head is the specification's head. -/
theorem refHead_eq (h : FVec Ideal S16384x1024 .f32) (wf : FVec Ideal S10x1024 .f32) (bf : FVec Ideal S10 .f32) :
    refHead h wf bf = Cert.Spec.headArr h wf bf := by
  funext i
  obtain ⟨n, j, rfl⟩ : ∃ (n : Fin 16384) (j : Fin 10), i = ix2 n j := ⟨i 0, i 1, eq_ix2 i⟩
  rw [Cert.Spec.headArr_apply]
  unfold refHead
  rw [addf_apply]
  have hb : broadcastInDim S16384x10 ![0, 1] bcast_S1x10_S16384x10_0_1 (broadcastInDim S1x10 ![1] bcast_S10_S1x10_1 bf)
      (ix2 n j) = bf (ix1 j) := by
    refine (broadcastInDim_apply _ _ _ (ix2 n j) (ix2 (0 : Fin 1) j) fun a => ?_).trans ?_
    · match a with
      | ⟨0, _⟩ => rfl
      | ⟨1, _⟩ => rfl
    · exact broadcastInDim_apply _ _ _ (ix2 (0 : Fin 1) j) (ix1 j) fun a => by
        match a with
        | ⟨0, _⟩ => rfl
  have hd : Host.dotGeneral dot_S16384x1024_S1024x10_S16384x10_1_0_0_1_n_n none h
      (transpose S1024x10 [1, 0] wf transposes_S10x1024_S1024x10_1_0) (ix2 n j)
        = ∑ d : Fin 1024, h (ix2 n d) * wf (ix2 j d) := by
    simp only [Host.dotGeneral]
    rw [Ideal.dotGeneral_apply,
      ← Equiv.sum_comp (contrEquiv1 dot_S16384x1024_S1024x10_S16384x10_1_0_0_1_n_n 1024 rfl rfl).symm]
    refine Finset.sum_congr rfl fun d _ => ?_
    obtain ⟨κ, hκ, hk⟩ : ∃ κ : dot_S16384x1024_S1024x10_S16384x10_1_0_0_1_n_n.contr.Idx,
        (contrEquiv1 dot_S16384x1024_S1024x10_S16384x10_1_0_0_1_n_n 1024 rfl rfl).symm d = κ
          ∧ (κ ⟨0, by decide⟩ : ℕ) = d.val :=
      ⟨_, rfl, contrEquiv1_symm_val dot_S16384x1024_S1024x10_S16384x10_1_0_0_1_n_n 1024 rfl rfl d⟩
    rw [hκ]
    have hl : dot_S16384x1024_S1024x10_S16384x10_1_0_0_1_n_n.lhsIdx (ix2 n j) κ = ix2 n d :=
      funext fun a => Fin.ext (by
        match a with
        | ⟨0, _⟩ => exact lhs_head_0 _ _
        | ⟨1, _⟩ => exact (lhs_head_1 _ _).trans hk)
    have hr : dot_S16384x1024_S1024x10_S16384x10_1_0_0_1_n_n.rhsIdx (ix2 n j) κ = ix2 d j :=
      funext fun a => Fin.ext (by
        match a with
        | ⟨0, _⟩ => exact (rhs_head_0 _ _).trans hk
        | ⟨1, _⟩ => exact rhs_head_1 _ _)
    rw [hl, hr]
    exact congrArg (h (ix2 n d) * ·) (transpose_apply [1, 0] wf transposes_S10x1024_S1024x10_1_0 (ix2 d j) (ix2 j d) fun b => by
      match b with
      | ⟨0, _⟩ => rfl
      | ⟨1, _⟩ => rfl)
  rw [hd, hb]

end Cert.ReferenceIdeal.Block

end
-- ==== Proof.RefRun.lean ====
/-
  The reference's run, with its result named by the specification.

  The generated run states the result buffer as the composed term of the reference's 95 operations.  That term is
  the reference's head applied to its block applied twice: the second block reads the first block's result where
  the first reads the activations, with the second set of weights.  Each of the three pieces is the
  specification's (the block and head modules), so the result is `Spec.G` of the nineteen arguments.
-/
import proofs.«150766_j26225070309871_1_alg».proof.Proof.Gen.ReferenceIdeal.Run
import proofs.«150766_j26225070309871_1_alg».proof.Proof.RefBlock
import proofs.«150766_j26225070309871_1_alg».proof.Proof.RefHead
import proofs.«150766_j26225070309871_1_alg».proof.Proof.SpecNet

set_option maxRecDepth 16384

noncomputable section

namespace Cert.ReferenceIdeal.RefValue

open Cert.ReferenceIdeal Cert.ReferenceIdeal.Gen Cert.ReferenceIdeal.Value Cert.ReferenceIdeal.Block
open Idealize.ShloMosaic Idealize.ShloMosaic.TcCoe Idealize.SL.Sem Idealize.ShloMosaic.StableHlo

/-- The first block's result in the generated run is the reference's block of the first nine arguments. -/
theorem first_block (V0 : Valuation τ sig (Elt Ideal)) :
    res_main_v39 (F := Ideal) V0
      = refBlock (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8)) := rfl

/-- Every weakly fair execution of the reference terminates with the result buffer at `Spec.G` of the arguments as
    launched, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  refine (θ_run defs _ _).mono (fun _ h c => ⟨(h c).1.trans ?_, (h c).2⟩) (Cert.ReferenceIdeal.Value.run (F := Ideal) m ρ)
  show refHead (refBlock (refBlock (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg17)) (m ((c.tc : Thread nD τ).loc main_arg18)) = _
  rw [refHead_eq, refBlock_eq, refBlock_eq]
  rfl

end Cert.ReferenceIdeal.RefValue

end
-- ==== Proof.lean ====
/- The certificate of a two-block bilinear network with layer normalisation, written as two grid kernels and a
   linear head, against its plain array reference: both compute, on the extended reals, the function `Cert.Spec.G`
   of the nineteen argument arrays.

   Each block maps a row x of 1024 activations to the normalisation of x + ((right ⊙ left) · weᵀ + be), where
   right = x · wrᵀ + br and left = x · wlᵀ + bl over 4096 hidden units.  The kernel program lays the weights out on
   the host (flatten, transpose, narrow to bf16: the identity on the extended reals), runs one grid kernel per block over
   128 row blocks of 128 rows, and applies the head on the host; the reference contracts the weights where they
   are.  The two differ only in the layout of the weights and in how the 16384 rows are cut, and every entry of
   the result depends on one row, so no law of the extended reals beyond `0 + s = s` is used and the precondition
   is never opened.

   Frames: the two kernel programs' are generated whole; the reference's is its generated run with the result
   dropped.  `preserves` is `True` (the ideal pass rewrote nothing).  `algebraic`: the kernel program's run with its
   result named (the launch called again over the generated segments) read through the segment boundaries down to
   `Spec.G` of the arguments, beside the reference's generated run read as the same function. -/
import proofs.«150766_j26225070309871_1_alg».proof.Defs
import proofs.«150766_j26225070309871_1_alg».proof.Proof.Gen.Kernel
import proofs.«150766_j26225070309871_1_alg».proof.Proof.Gen.Kernel.Skeleton
import proofs.«150766_j26225070309871_1_alg».proof.Proof.Gen.Kernel.Launch
import proofs.«150766_j26225070309871_1_alg».proof.Proof.Gen.Kernel.Points
import proofs.«150766_j26225070309871_1_alg».proof.Proof.Gen.Kernel.Frame
import proofs.«150766_j26225070309871_1_alg».proof.Proof.Gen.KernelIdeal
import proofs.«150766_j26225070309871_1_alg».proof.Proof.Gen.KernelIdeal.Skeleton
import proofs.«150766_j26225070309871_1_alg».proof.Proof.Gen.KernelIdeal.Launch
import proofs.«150766_j26225070309871_1_alg».proof.Proof.Gen.KernelIdeal.Points
import proofs.«150766_j26225070309871_1_alg».proof.Proof.Gen.KernelIdeal.Frame
import proofs.«150766_j26225070309871_1_alg».proof.Proof.Gen.ReferenceIdeal
import proofs.«150766_j26225070309871_1_alg».proof.Proof.Gen.ReferenceIdeal.Run
import proofs.«150766_j26225070309871_1_alg».proof.Proof.KValue
import proofs.«150766_j26225070309871_1_alg».proof.Proof.RefRun
import proofs.«150766_j26225070309871_1_alg».proof.Proof.Gen.Pre_finite_inputs
import Idealize.ShloMosaic.Adequacy
import Idealize.ShloMosaic.Init

noncomputable section

namespace Cert.Proof

open Idealize.ShloMosaic Idealize.SL.Sem Cert.Kernel

/-- From memories that agree on the arguments both programs end with their result buffers at `Spec.G` of those
    arguments: the kernel program's run read through its segment boundaries, the reference's generated run read as the
    same function, and the agreement of the arguments rewritten. -/
theorem algebraic : Cert.algebraic_KernelIdeal_ReferenceIdeal := by
  intro m ρ m' ρ' _ hagree
  refine ⟨_, Cert.KernelIdeal.NetValue.run_G m ρ, ?_⟩
  refine (θ_run Cert.ReferenceIdeal.defs _ _).mono (fun _ h c => ⟨(h c).1.trans ?_, (h c).2⟩)
    (Cert.ReferenceIdeal.RefValue.run_G m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
